-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S129x128x128 : S_.BroadcastsInDim S129x128x128 (![] : Fin 0 → Fin S129x128x128.rank)
  reducesTo_S129x128x128_S_d0_1_2 : S129x128x128.ReducesTo [0, 1, 2] S_
  bcast_S_S129 : S_.BroadcastsInDim S129 (![] : Fin 0 → Fin S129.rank)
  reducesTo_S129_S_d0 : S129.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x8192 .f32) (main_arg1 : FVec F S129x128x128 .f32) (main_arg2 : FVec F S129 .f32) (main_arg3 : FVec F S128 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S129x128x128 .f32 := Host.absf main_arg1
  let main_cst_0 : FVec F S_ .f32 := constant S_ .f32 0x7F800000#32
  let main_v5 : FVec F S129x128x128 .f32 := broadcastInDim S129x128x128 ![] bcast_S_S129x128x128 main_cst_0
  let main_v6 : IVec S129x128x128 1 := cmpf .olt main_v4 main_v5
  let main_c_1 : IVec S_ 1 := constantI S_ 1 1#1
  let main_v7 : IVec S_ 1 := (fun x v => Host.reduce IntOp.andi x v reducesTo_S129x128x128_S_d0_1_2 h_S_) main_v6 main_c_1
  let main_v8 : IVec S_ 1 := andi main_v3 main_v7
  let main_v9 : FVec F S129 .f32 := Host.absf main_arg2
  let main_cst_2 : FVec F S_ .f32 := constant S_ .f32 0x7F800000#32
  let main_v10 : FVec F S129 .f32 := broadcastInDim S129 ![] bcast_S_S129 main_cst_2
  let main_v11 : IVec S129 1 := cmpf .olt main_v9 main_v10
  let main_c_3 : IVec S_ 1 := constantI S_ 1 1#1
  let main_v12 : IVec S_ 1 := (fun x v => Host.reduce IntOp.andi x v reducesTo_S129_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S128x1x8192 : Shape := ⟨3, ![128, 1, 8192]⟩
abbrev S128x128x129 : Shape := ⟨3, ![128, 128, 129]⟩
abbrev S129x1 : Shape := ⟨2, ![129, 1]⟩
abbrev S_ : Shape := ⟨0, ![]⟩
abbrev S1 : Shape := ⟨1, ![1]⟩
abbrev S1x1x4096 : Shape := ⟨3, ![1, 1, 4096]⟩
abbrev S1x128x129 : Shape := ⟨3, ![1, 128, 129]⟩
abbrev S128x4096 : Shape := ⟨2, ![128, 4096]⟩
abbrev S1x4096 : Shape := ⟨2, ![1, 4096]⟩
abbrev S129x4096 : Shape := ⟨2, ![129, 4096]⟩
abbrev S4096 : Shape := ⟨1, ![4096]⟩
abbrev S128x129 : Shape := ⟨2, ![128, 129]⟩

abbrev nBuf : Space → Nat
  | .hbm => 13
  | .vmem => 8
  | .smem => 0
  | _ => 0

abbrev bufTy : (tb : Table) → Fin (tcTables nBuf tb) → BufTy
  | .hbm, ⟨0, _⟩ => ⟨S128x8192, .f32⟩
  | .hbm, ⟨1, _⟩ => ⟨S129x128x128, .f32⟩
  | .hbm, ⟨2, _⟩ => ⟨S129, .f32⟩
  | .hbm, ⟨3, _⟩ => ⟨S128, .f32⟩
  | .hbm, ⟨4, _⟩ => ⟨S128x1x8192, .f32⟩
  | .hbm, ⟨5, _⟩ => ⟨S128x128x129, .f32⟩
  | .hbm, ⟨6, _⟩ => ⟨S128x128x129, .bf16⟩
  | .hbm, ⟨7, _⟩ => ⟨S129x1, .f32⟩
  | .hbm, ⟨8, _⟩ => ⟨S_, .f32⟩
  | .hbm, ⟨9, _⟩ => ⟨S1, .f32⟩
  | .hbm, ⟨10, _⟩ => ⟨S129, .f32⟩
  | .hbm, ⟨11, _⟩ => ⟨S129x1, .f32⟩
  | .hbm, ⟨12, _⟩ => ⟨S128x8192, .f32⟩
  | .local _ .vmem, ⟨0, _⟩ => ⟨S1x1x4096, .f32⟩
  | .local _ .vmem, ⟨1, _⟩ => ⟨S1x1x4096, .f32⟩
  | .local _ .vmem, ⟨2, _⟩ => ⟨S1x128x129, .bf16⟩
  | .local _ .vmem, ⟨3, _⟩ => ⟨S1x128x129, .bf16⟩
  | .local _ .vmem, ⟨4, _⟩ => ⟨S129x1, .f32⟩
  | .local _ .vmem, ⟨5, _⟩ => ⟨S129x1, .f32⟩
  | .local _ .vmem, ⟨6, _⟩ => ⟨S128x4096, .f32⟩
  | .local _ .vmem, ⟨7, _⟩ => ⟨S128x4096, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x129 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S129x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S129x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128x8192_S128x1x8192 : S128x8192.ShapeCasts S128x1x8192
  transposes_S129x128x128_S128x128x129_2_1_0 : S129x128x128.Transposes [2, 1, 0] S128x128x129
  bitsLt_bf16_f32 : FTy.bits .bf16 < FTy.bits .f32
  shapeCasts_S129_S129x1 : S129.ShapeCasts S129x1
  bcast_S_S1 : S_.BroadcastsInDim S1 (![] : Fin 0 → Fin S1.rank)
  concatenates_S128_S1_S129_d0 : Shape.Concatenates [S128, S1] S129 0
  inb_S128x4096_S128x4096_0_0 : ∀ a, (![0, 0] : Fin 2 → Nat) a + S128x4096.size a ≤ S128x4096.size a
  h_S128x4096 : 0 < S128x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S129x1_d0_w32 : S129x1.Iotas .tc 32 [0]
  broadcasts_S129x1_S129x4096 : S129x1.Broadcasts S129x4096
  broadcasts_S1x4096_S129x4096 : S1x4096.Broadcasts S129x4096
  natLt_1_32 : 1 < 32
  inb_S129x1_S129x1_0_0 : ∀ a, (![0, 0] : Fin 2 → Nat) a + S129x1.size a ≤ S129x1.size a
  h_S129x1 : 0 < S129x1.numel
  shapeCasts_S129x1_S129x1 : S129x1.ShapeCasts S129x1
  reduces_S129x4096_S4096 : S129x4096.Reduces [0] S4096
  shapeCasts_S4096_S1x4096 : S4096.ShapeCasts S1x4096
  inb_S1x128x129_S1x128x129_0_0_0 : ∀ a, (![0, 0, 0] : Fin 3 → Nat) a + S1x128x129.size a ≤ S1x128x129.size a
  h_S1x128x129 : 0 < S1x128x129.numel
  shapeCasts_S1x128x129_S128x129 : S1x128x129.ShapeCasts S128x129
  shapeCasts_S128x4096_S128x4096 : S128x4096.ShapeCasts S128x4096
  dot_S128x129_S129x4096_S128x4096_1_0_0_1_n_n_wf : DotDims.WF S128x129 S129x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S128x1x8192.size a
  hwx0_0 : ∀ i : grid0.Coords, EltTy.bits .f32 = 32 ∨ (Rect.block (s := S128x1x8192) S1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x129.size a ≤ S128x128x129.size a
  hwx0_1 : ∀ i : grid0.Coords, EltTy.bits .bf16 = 32 ∨ (Rect.block (s := S128x128x129) S1x128x129.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x1.size a ≤ S129x1.size a
  hwx0_2 : ∀ i : grid0.Coords, EltTy.bits .f32 = 32 ∨ (Rect.block (s := S129x1) S129x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x1.size a ≤ S129x1.size a
  hwx0_3 : ∀ i : grid0.Coords, EltTy.bits .f32 = 32 ∨ (Rect.block (s := S129x1) S129x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x8192.size a
  hwx0_4 : ∀ i : grid0.Coords, EltTy.bits .f32 = 32 ∨ (Rect.block (s := S128x8192) S128x4096.size (cc0_transform_4 i) (hinb0_4 i)).WholeWords (EltTy.packing .f32)

variable [Facts₀]

def dot_S128x129_S129x4096_S128x4096_1_0_0_1_n_n : DotDims S128x129 S129x4096 S128x4096 where
  lhsContracting := [1]
  rhsContracting := [0]
  lhsNonContracting := [0]
  rhsNonContracting := [1]
  lhsBatch := []
  rhsBatch := []
  wf := dot_S128x129_S129x4096_S128x4096_1_0_0_1_n_n_wf

abbrev win0_0 : Pipeline.Window sig grid0 :=
  Pipeline.Window.ofSpec (Memref.whole main_v0) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128x129.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S129x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S129x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x8192 : Shape := ⟨2, ![128, 8192]⟩
abbrev S129x128x128 : Shape := ⟨3, ![129, 128, 128]⟩
abbrev S129 : Shape := ⟨1, ![129]⟩
abbrev S128 : Shape := ⟨1, ![128]⟩
abbrev S_ : Shape := ⟨0, ![]⟩
abbrev S128x8192x1 : Shape := ⟨3, ![128, 8192, 1]⟩
abbrev S128x129x128 : Shape := ⟨3, ![128, 129, 128]⟩
abbrev S128x1 : Shape := ⟨2, ![128, 1]⟩
abbrev S128x8192x2 : Shape := ⟨3, ![128, 8192, 2]⟩
abbrev S128x8192x128 : Shape := ⟨3, ![128, 8192, 128]⟩
abbrev S8192x128 : Shape := ⟨2, ![8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S129x128x128, .f32⟩
  | .hbm, ⟨2, _⟩ => ⟨S129, .f32⟩
  | .hbm, ⟨3, _⟩ => ⟨S128, .f32⟩
  | .hbm, ⟨4, _⟩ => ⟨S128x8192, .f32⟩
  | .hbm, ⟨5, _⟩ => ⟨S128x8192, .f32⟩
  | .hbm, ⟨6, _⟩ => ⟨S128x8192, .f32⟩
  | .hbm, ⟨7, _⟩ => ⟨S_, .f32⟩
  | .hbm, ⟨8, _⟩ => ⟨S128x8192, .f32⟩
  | .hbm, ⟨9, _⟩ => ⟨S128x8192, .i1⟩
  | .hbm, ⟨10, _⟩ => ⟨S_, .f32⟩
  | .hbm, ⟨11, _⟩ => ⟨S128x8192, .f32⟩
  | .hbm, ⟨12, _⟩ => ⟨S128x8192, .f32⟩
  | .hbm, ⟨13, _⟩ => ⟨S_, .f32⟩
  | .hbm, ⟨14, _⟩ => ⟨S128x8192, .f32⟩
  | .hbm, ⟨15, _⟩ => ⟨S128x8192, .f32⟩
  | .hbm, ⟨16, _⟩ => ⟨S_, .f32⟩
  | .hbm, ⟨17, _⟩ => ⟨S128x8192, .f32⟩
  | .hbm, ⟨18, _⟩ => ⟨S128x8192, .f32⟩
  | .hbm, ⟨19, _⟩ => ⟨S128x8192, .f32⟩
  | .hbm, ⟨20, _⟩ => ⟨S_, .f32⟩
  | .hbm, ⟨21, _⟩ => ⟨S128x8192, .f32⟩
  | .hbm, ⟨22, _⟩ => ⟨S128x8192, .f32⟩
  | .hbm, ⟨23, _⟩ => ⟨S128x8192, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x8192, .i32⟩
  | .hbm, ⟨28, _⟩ => ⟨S128x8192, .i32⟩
  | .hbm, ⟨29, _⟩ => ⟨S_, .i32⟩
  | .hbm, ⟨30, _⟩ => ⟨S128x8192, .i32⟩
  | .hbm, ⟨31, _⟩ => ⟨S128x8192, .i32⟩
  | .hbm, ⟨32, _⟩ => ⟨S_, .i32⟩
  | .hbm, ⟨33, _⟩ => ⟨S128x8192, .i32⟩
  | .hbm, ⟨34, _⟩ => ⟨S128x8192, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S128x8192, .i32⟩
  | .hbm, ⟨39, _⟩ => ⟨S128x8192, .i32⟩
  | .hbm, ⟨40, _⟩ => ⟨S_, .i32⟩
  | .hbm, ⟨41, _⟩ => ⟨S128x8192, .i32⟩
  | .hbm, ⟨42, _⟩ => ⟨S128x8192, .i32⟩
  | .hbm, ⟨43, _⟩ => ⟨S_, .i32⟩
  | .hbm, ⟨44, _⟩ => ⟨S128x8192, .i32⟩
  | .hbm, ⟨45, _⟩ => ⟨S128x8192, .i1⟩
  | .hbm, ⟨46, _⟩ => ⟨S_, .i32⟩
  | .hbm, ⟨47, _⟩ => ⟨S128x8192, .i32⟩
  | .hbm, ⟨48, _⟩ => ⟨S128x8192, .i32⟩
  | .hbm, ⟨49, _⟩ => ⟨S128x8192, .i32⟩
  | .hbm, ⟨50, _⟩ => ⟨S128x8192x1, .i32⟩
  | .hbm, ⟨51, _⟩ => ⟨S128x8192, .f32⟩
  | .hbm, ⟨52, _⟩ => ⟨S_, .i32⟩
  | .hbm, ⟨53, _⟩ => ⟨S128x8192, .i32⟩
  | .hbm, ⟨54, _⟩ => ⟨S128x8192, .i1⟩
  | .hbm, ⟨55, _⟩ => ⟨S_, .i32⟩
  | .hbm, ⟨56, _⟩ => ⟨S128x8192, .i32⟩
  | .hbm, ⟨57, _⟩ => ⟨S128x8192, .i32⟩
  | .hbm, ⟨58, _⟩ => ⟨S128x8192, .i32⟩
  | .hbm, ⟨59, _⟩ => ⟨S128x8192x1, .i32⟩
  | .hbm, ⟨60, _⟩ => ⟨S128x8192, .f32⟩
  | .hbm, ⟨61, _⟩ => ⟨S128x8192, .f32⟩
  | .hbm, ⟨62, _⟩ => ⟨S128x8192, .f32⟩
  | .hbm, ⟨63, _⟩ => ⟨S128x129x128, .f32⟩
  | .hbm, ⟨64, _⟩ => ⟨S128, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S128x1, .i32⟩
  | .hbm, ⟨73, _⟩ => ⟨S_, .i32⟩
  | .hbm, ⟨74, _⟩ => ⟨S128x8192, .i32⟩
  | .hbm, ⟨75, _⟩ => ⟨S128x8192, .i1⟩
  | .hbm, ⟨76, _⟩ => ⟨S_, .i32⟩
  | .hbm, ⟨77, _⟩ => ⟨S128x8192, .i32⟩
  | .hbm, ⟨78, _⟩ => ⟨S128x8192, .i32⟩
  | .hbm, ⟨79, _⟩ => ⟨S128x8192, .i32⟩
  | .hbm, ⟨80, _⟩ => ⟨S128x8192, .i32⟩
  | .hbm, ⟨81, _⟩ => ⟨S128x8192x1, .i32⟩
  | .hbm, ⟨82, _⟩ => ⟨S128x8192x1, .i32⟩
  | .hbm, ⟨83, _⟩ => ⟨S128x8192x2, .i32⟩
  | .hbm, ⟨84, _⟩ => ⟨S128x8192x128, .f32⟩
  | .hbm, ⟨85, _⟩ => ⟨S_, .i32⟩
  | .hbm, ⟨86, _⟩ => ⟨S128x1, .i32⟩
  | .hbm, ⟨87, _⟩ => ⟨S128x1, .i1⟩
  | .hbm, ⟨88, _⟩ => ⟨S_, .i32⟩
  | .hbm, ⟨89, _⟩ => ⟨S128x1, .i32⟩
  | .hbm, ⟨90, _⟩ => ⟨S128x1, .i32⟩
  | .hbm, ⟨91, _⟩ => ⟨S128x1, .i32⟩
  | .hbm, ⟨92, _⟩ => ⟨S_, .i32⟩
  | .hbm, ⟨93, _⟩ => ⟨S128x8192, .i32⟩
  | .hbm, ⟨94, _⟩ => ⟨S128x8192, .i1⟩
  | .hbm, ⟨95, _⟩ => ⟨S_, .i32⟩
  | .hbm, ⟨96, _⟩ => ⟨S128x8192, .i32⟩
  | .hbm, ⟨97, _⟩ => ⟨S128x8192, .i32⟩
  | .hbm, ⟨98, _⟩ => ⟨S128x8192, .i32⟩
  | .hbm, ⟨99, _⟩ => ⟨S128x8192, .i32⟩
  | .hbm, ⟨100, _⟩ => ⟨S128x8192x1, .i32⟩
  | .hbm, ⟨101, _⟩ => ⟨S128x8192x1, .i32⟩
  | .hbm, ⟨102, _⟩ => ⟨S128x8192x2, .i32⟩
  | .hbm, ⟨103, _⟩ => ⟨S128x8192x128, .f32⟩
  | .hbm, ⟨104, _⟩ => ⟨S_, .f32⟩
  | .hbm, ⟨105, _⟩ => ⟨S128x8192, .f32⟩
  | .hbm, ⟨106, _⟩ => ⟨S128x8192, .f32⟩
  | .hbm, ⟨107, _⟩ => ⟨S128x8192x1, .f32⟩
  | .hbm, ⟨108, _⟩ => ⟨S128x8192x128, .f32⟩
  | .hbm, ⟨109, _⟩ => ⟨S128x8192x128, .f32⟩
  | .hbm, ⟨110, _⟩ => ⟨S128x8192x1, .f32⟩
  | .hbm, ⟨111, _⟩ => ⟨S128x8192x128, .f32⟩
  | .hbm, ⟨112, _⟩ => ⟨S128x8192x128, .f32⟩
  | .hbm, ⟨113, _⟩ => ⟨S128x8192x128, .f32⟩
  | .hbm, ⟨114, _⟩ => ⟨S_, .f32⟩
  | .hbm, ⟨115, _⟩ => ⟨S8192x128, .f32⟩
  | .hbm, ⟨116, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_c_7 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v18 : Ref sig .tc := ⟨.hbm, 42, rfl⟩
abbrev main_c_8 : Ref sig .tc := ⟨.hbm, 43, rfl⟩
abbrev main_v19 : Ref sig .tc := ⟨.hbm, 44, rfl⟩
abbrev main_v20 : Ref sig .tc := ⟨.hbm, 45, rfl⟩
abbrev main_c_9 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_10 : Ref sig .tc := ⟨.hbm, 52, rfl⟩
abbrev main_v26 : Ref sig .tc := ⟨.hbm, 53, rfl⟩
abbrev main_v27 : Ref sig .tc := ⟨.hbm, 54, rfl⟩
abbrev main_c_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_v39 : Ref sig .tc := ⟨.hbm, 68, rfl⟩
abbrev main_c_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_14 : Ref sig .tc := ⟨.hbm, 73, rfl⟩
abbrev main_v43 : Ref sig .tc := ⟨.hbm, 74, rfl⟩
abbrev main_v44 : Ref sig .tc := ⟨.hbm, 75, rfl⟩
abbrev main_c_15 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_c_17 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_18 : Ref sig .tc := ⟨.hbm, 92, rfl⟩
abbrev main_v58 : Ref sig .tc := ⟨.hbm, 93, rfl⟩
abbrev main_v59 : Ref sig .tc := ⟨.hbm, 94, rfl⟩
abbrev main_c_19 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]

class Facts₀ : Prop where
  bcast_S_S128x8192 : S_.BroadcastsInDim S128x8192 (![] : Fin 0 → Fin S128x8192.rank)
  bcast_S128x8192_S128x8192x1_0_1 : S128x8192.BroadcastsInDim S128x8192x1 (![0, 1] : Fin 2 → Fin S128x8192x1.rank)
  transposes_S129x128x128_S128x129x128_2_0_1 : S129x128x128.Transposes [2, 0, 1] S128x129x128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x8192_0_1 : S128x1.BroadcastsInDim S128x8192 (![0, 1] : Fin 2 → Fin S128x8192.rank)
  concatenates_S128x8192x1_S128x8192x1_S128x8192x2_d2 : Shape.Concatenates [S128x8192x1, S128x8192x1] S128x8192x2 2
  bcast_S128x8192x1_S128x8192x128_0_1_2 : S128x8192x1.BroadcastsInDim S128x8192x128 (![0, 1, 2] : Fin 3 → Fin S128x8192x128.rank)
  reducesTo_S128x8192x128_S8192x128_d0 : S128x8192x128.ReducesTo [0] S8192x128
  h_S_ : 0 < S_.numel
  transposes_S8192x128_S128x8192_1_0 : S8192x128.Transposes [1, 0] S128x8192
  gather_S129_S128x8192x1_S128x8192_n_0_n_n_0_2_1_wf : GatherDims.WF S129 S128x8192x1 S128x8192 [] [0] [] [0] [] 2 ![1]
  gather_S128_S128x8192x1_S128x8192_n_0_n_n_0_2_1_wf : GatherDims.WF S128 S128x8192x1 S128x8192 [] [0] [] [0] [] 2 ![1]
  gather_S128x129x128_S128x8192x2_S128x8192x128_2_01_n_n_01_2_11128_wf : GatherDims.WF S128x129x128 S128x8192x2 S128x8192x128 [2] [0, 1] [] [0, 1] [] 2 ![1, 1, 128]

variable [Facts₀]

def gather_S129_S128x8192x1_S128x8192_n_0_n_n_0_2_1 : GatherDims S129 S128x8192x1 S128x8192 where
  offsetDims := []
  collapsedSliceDims := [0]
  operandBatchingDims := []
  startIndicesBatchingDims := []
  startIndexMap := [0]
  indexVectorDim := 2
  sliceSizes := ![1]
  wf := gather_S129_S128x8192x1_S128x8192_n_0_n_n_0_2_1_wf
def gather_S128_S128x8192x1_S128x8192_n_0_n_n_0_2_1 : GatherDims S128 S128x8192x1 S128x8192 where
  offsetDims := []
  collapsedSliceDims := [0]
  operandBatchingDims := []
  startIndicesBatchingDims := []
  startIndexMap := [0]
  indexVectorDim := 2
  sliceSizes := ![1]
  wf := gather_S128_S128x8192x1_S128x8192_n_0_n_n_0_2_1_wf
def gather_S128x129x128_S128x8192x2_S128x8192x128_2_01_n_n_01_2_11128 : GatherDims S128x129x128 S128x8192x2 S128x8192x128 where
  offsetDims := [2]
  collapsedSliceDims := [0, 1]
  operandBatchingDims := []
  startIndicesBatchingDims := []
  startIndexMap := [0, 1]
  indexVectorDim := 2
  sliceSizes := ![1, 1, 128]
  wf := gather_S128x129x128_S128x8192x2_S128x8192x128_2_01_n_n_01_2_11128_wf

class Facts : Prop extends Facts₀ where

variable [Facts]
-- ==== Proof.Interp.lean ====
/-
  The mathematics shared by the kernel and its reference, with no program in sight.

  A real x is sent through the Laplace distribution function, cdf x = 1 − ½·e^{−|x|} for x > 0 and ½·e^{−|x|}
  otherwise, into one of 128 equal cells of [0, 1]: cell x is the integer part of 128·cdf x clamped into 0 … 127.
  Over that cell a piecewise-linear function with 129 knots is evaluated: with
  d = (x − left edge of the cell) · (reciprocal length of the cell) the value is (1 − d)·p[cell] + d·p[cell + 1].

  The kernel does not index a table by cell x; it multiplies the table by a column that is 1 at row cell x and 0
  elsewhere and sums over the 129 rows. sum_hot and sum_two_hot say that such sums pick the entry out: on the extended
  reals 0 · a = 0 and 1 · a = a for EVERY a, infinite or not, so no finiteness is needed.
-/
import Idealize.ShloMosaic.PureOps.Ideal
import Idealize.ShloMosaic.PureOps.Ideal.Laws
import Idealize.ShloMosaic.Lib.ValueIdx

noncomputable section

namespace Cert.Interp

open Idealize.ShloMosaic

/-- e^{−|x|}, the absolute value as the larger of x and −x. -/
def tail (x : EReal) : EReal := Ideal.exp (-(max x (-x)))

/-- The Laplace distribution function, by the sign of x. -/
def cdf (x : EReal) : EReal :=
  Scalar.select (Ideal.cmp .ogt x (Ideal.ofBits .f32 0x00000000#32))
    (Ideal.ofBits .f32 0x3F800000#32 - Ideal.ofBits .f32 0x3F000000#32 * tail x)
    (Ideal.ofBits .f32 0x3F000000#32 * tail x)

/-- The cell of x: the integer part of 128 · cdf x, clamped into 0 … 127, as a 32-bit word. -/
def cell (x : EReal) : BitVec 32 :=
  IntOp.minsi 127#32 (IntOp.maxsi 0#32 (Ideal.fptosi 32 (cdf x * Ideal.ofBits .f32 0x43000000#32)))

/-- Clamping a word between 0 and 127 (signed) leaves a natural number at most 127. -/
theorem clamp_le (t : BitVec 32) : (IntOp.minsi 127#32 (IntOp.maxsi 0#32 t)).toNat ≤ 127 := by
  unfold IntOp.minsi IntOp.maxsi
  simp only [BitVec.slt, BitVec.toInt_eq_toNat_cond]
  have ht := t.isLt
  split_ifs <;> simp_all <;> omega

theorem cell_le (x : EReal) : (cell x).toNat ≤ 127 := clamp_le _

/-- The column with 1 at the row whose number is the word k, 0 elsewhere: a comparison widened to a word and
    read as a real. -/
def hot (g : Nat) (k : BitVec 32) : EReal :=
  (((((IntOp.cmpi .eq (BitVec.ofNat 32 g) k).setWidth 32 : BitVec 32)).toInt : ℝ) : EReal)

theorem hot_eq (g : Nat) (hg : g < 2 ^ 32) (k : BitVec 32) : hot g k = if g = k.toNat then 1 else 0 := by
  unfold hot IntOp.cmpi
  by_cases h : g = k.toNat
  · have e : BitVec.ofNat 32 g = k := by subst h; simp
    rw [if_pos h]
    simp [e]
  · have e : ¬ BitVec.ofNat 32 g = k := by
      intro e; apply h; rw [← e, BitVec.toNat_ofNat, Nat.mod_eq_of_lt hg]
    have eb : (BitVec.ofNat 32 g == k) = false := by simpa using e
    rw [if_neg h]
    simp [eb]

/-- A sum against the column picks the entry at the word's row. -/
theorem sum_hot {n : Nat} (hn : n < 2 ^ 32) (k : BitVec 32) (hk : k.toNat < n) (f : Fin n → EReal) :
    ∑ g : Fin n, hot g.val k * f g = f ⟨k.toNat, hk⟩ := by
  rw [Finset.sum_eq_single (⟨k.toNat, hk⟩ : Fin n)]
  · rw [hot_eq _ (by omega), if_pos rfl, one_mul]
  · intro g _ hne
    rw [hot_eq _ (by have := g.isLt; omega), if_neg (fun h => hne (Fin.ext h)), zero_mul]
  · intro h; exact absurd (Finset.mem_univ _) h

/-- The next word's row is the next row, as long as it is a row. -/
theorem toNat_succ {n : Nat} (hn : n < 2 ^ 32) (k : BitVec 32) (hk : k.toNat + 1 < n) :
    (k + 1#32).toNat = k.toNat + 1 := by
  rw [BitVec.toNat_add]; simp; omega

/-- A sum against u times the column at k plus v times the column at k + 1 picks two neighbouring entries. -/
theorem sum_two_hot {n : Nat} (hn : n < 2 ^ 32) (k : BitVec 32) (hk : k.toNat + 1 < n) (u v : EReal)
    (p : Fin n → EReal) :
    ∑ g : Fin n, p g * (u * hot g.val k + v * hot g.val (k + 1#32))
      = p ⟨k.toNat, by omega⟩ * u + p ⟨k.toNat + 1, hk⟩ * v := by
  have hs := toNat_succ hn k hk
  have key : ∀ g : Fin n, p g * (u * hot g.val k + v * hot g.val (k + 1#32))
      = (if g = (⟨k.toNat, by omega⟩ : Fin n) then p g * u else 0)
        + (if g = (⟨k.toNat + 1, hk⟩ : Fin n) then p g * v else 0) := by
    intro g
    have hg : g.val < 2 ^ 32 := by have := g.isLt; omega
    rw [hot_eq _ hg, hot_eq _ hg, hs]
    by_cases h1 : g.val = k.toNat
    · have h2 : ¬ g.val = k.toNat + 1 := by omega
      rw [if_pos h1, if_neg h2, if_pos (Fin.ext h1), if_neg (fun h => h2 (congrArg Fin.val h)),
        mul_one, mul_zero, add_zero, add_zero]
    · by_cases h2 : g.val = k.toNat + 1
      · rw [if_neg h1, if_pos h2, if_neg (fun h => h1 (congrArg Fin.val h)), if_pos (Fin.ext h2),
          mul_zero, mul_one, zero_add, zero_add]
      · rw [if_neg h1, if_neg h2, if_neg (fun h => h1 (congrArg Fin.val h)), if_neg (fun h => h2 (congrArg Fin.val h)),
          mul_zero, mul_zero, add_zero, mul_zero]
  rw [Finset.sum_congr rfl (fun g _ => key g), Finset.sum_add_distrib,
    Finset.sum_ite_eq' Finset.univ, Finset.sum_ite_eq' Finset.univ, if_pos (Finset.mem_univ _), if_pos (Finset.mem_univ _)]

/-- The piecewise-linear function on the cell of x: knots b (129 of them), reciprocal cell lengths l (the kernel
    carries 129 of these too, the last never read) and table column p. Products are written table entry first, as the
    kernel's row sum leaves them. -/
def term (x : EReal) (b l p : Fin 129 → EReal) : EReal :=
  p ⟨(cell x).toNat, by have := cell_le x; omega⟩
      * (Ideal.ofBits .f32 0x3F800000#32
          - (x - b ⟨(cell x).toNat, by have := cell_le x; omega⟩) * l ⟨(cell x).toNat, by have := cell_le x; omega⟩)
    + p ⟨(cell x).toNat + 1, by have := cell_le x; omega⟩
      * ((x - b ⟨(cell x).toNat, by have := cell_le x; omega⟩) * l ⟨(cell x).toNat, by have := cell_le x; omega⟩)

/-- The function reads its reciprocal lengths only below row 128 (the cell is at most 127): two sets of data that agree
    there, and on the knots and the table column everywhere, give the same value. -/
theorem term_congr {x x' : EReal} {b b' l l' p p' : Fin 129 → EReal} (hx : x = x') (hb : ∀ g, b g = b' g)
    (hl : ∀ g : Fin 129, g.val < 128 → l g = l' g) (hp : ∀ g, p g = p' g) : term x b l p = term x' b' l' p' := by
  obtain rfl : b = b' := funext hb
  obtain rfl : p = p' := funext hp
  subst hx
  unfold term
  have hc := cell_le x
  rw [hl ⟨(cell x).toNat, by omega⟩ (by show (cell x).toNat < 128; omega)]

end Cert.Interp

end
-- ==== Proof.Cols.lean ====
/-
  The pieces of the kernel's body read at an index, at the extended reals: the row of x the point loads, the cell of each
  entry, and the two columns that are 1 at the cell's row and at the row after it.
-/
import proofs.«128965_j2293512536822_1_alg».proof.Proof.Gen.KernelIdeal.Skeleton
import proofs.«128965_j2293512536822_1_alg».proof.Proof.Interp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cols

open Cert.KernelIdeal Cert.KernelIdeal.Gen Idealize.ShloMosaic Idealize.ShloMosaic.ValueIdx Cert.Interp

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The loaded row of x with its two unit axes reduced to one. -/
theorem row_apply (x0 : Vec Ideal S1x1x4096 .f32) (b : Fin 4096) :
    k0_pay3 x0 (ix2 (0 : Fin 1) b) = x0 (ix3 (0 : Fin 1) (0 : Fin 1) b) := by
  unfold k0_pay3
  exact shapeCast_1ab_ab_apply x0 _ (0 : Fin 1) b

/-- The kernel writes e^{0 − |x|} where the specification has e^{−|x|}. -/
theorem zero_sub_ofBits (a : EReal) : Ideal.ofBits .f32 0x00000000#32 - a = -a := by
  rw [Ideal.ofBits_zero_f32, zero_sub]

/-- The clamped word of each entry of the row is its cell. -/
theorem cell_apply (x0 : Vec Ideal S1x1x4096 .f32) (b : Fin 4096) :
    k0_pay4 x0 (ix2 (0 : Fin 1) b) = cell (x0 (ix3 (0 : Fin 1) (0 : Fin 1) b)) := by
  rw [← row_apply x0 b]
  show IntOp.minsi 127#32 (IntOp.maxsi 0#32 (Ideal.fptosi 32
    (Scalar.select (Ideal.cmp .ogt (k0_pay3 x0 (ix2 (0 : Fin 1) b)) (Ideal.ofBits .f32 0x00000000#32))
      (Ideal.ofBits .f32 0x3F800000#32 - Ideal.ofBits .f32 0x3F000000#32
        * Ideal.exp (Ideal.ofBits .f32 0x00000000#32 - max (k0_pay3 x0 (ix2 (0 : Fin 1) b)) (-(k0_pay3 x0 (ix2 (0 : Fin 1) b)))))
      (Ideal.ofBits .f32 0x3F000000#32
        * Ideal.exp (Ideal.ofBits .f32 0x00000000#32 - max (k0_pay3 x0 (ix2 (0 : Fin 1) b)) (-(k0_pay3 x0 (ix2 (0 : Fin 1) b)))))
      * Ideal.ofBits .f32 0x43000000#32))) = _
  rw [zero_sub_ofBits]
  rfl

/-- The row counter 0 … 128 down a column. -/
theorem iota_apply (g : Fin 129) :
    iota .tc S129x1 32 [0] iota_S129x1_d0_w32 (ix2 g (0 : Fin 1)) = BitVec.ofNat 32 g.val := by
  show BitVec.ofNat 32 (0 * 129 + g.val) = _
  rw [Nat.zero_mul, Nat.zero_add]

/-- The column that is 1 at the cell's row. -/
theorem here_apply (x0 : Vec Ideal S1x1x4096 .f32) (g : Fin 129) (b : Fin 4096) :
    k0_pay5 x0 (ix2 g b) = hot g.val (cell (x0 (ix3 (0 : Fin 1) (0 : Fin 1) b))) := by
  rw [← cell_apply x0 b]
  show ((((IntOp.cmpi .eq
      (broadcastTo S129x4096 (iota .tc S129x1 32 [0] iota_S129x1_d0_w32) broadcasts_S129x1_S129x4096 (ix2 g b))
      (broadcastTo S129x4096 (k0_pay4 x0) broadcasts_S1x4096_S129x4096 (ix2 g b))).setWidth 32 : BitVec 32).toInt : ℝ) : EReal) = _
  rw [broadcastTo_a1_ab_apply, broadcastTo_1b_ab_apply, iota_apply]
  rfl

/-- The column that is 1 at the row after the cell's. -/
theorem next_apply (x0 : Vec Ideal S1x1x4096 .f32) (g : Fin 129) (b : Fin 4096) :
    k0_pay6 x0 (ix2 g b) = hot g.val (cell (x0 (ix3 (0 : Fin 1) (0 : Fin 1) b)) + 1#32) := by
  rw [← cell_apply x0 b]
  show ((((IntOp.cmpi .eq
      (broadcastTo S129x4096 (iota .tc S129x1 32 [0] iota_S129x1_d0_w32) broadcasts_S129x1_S129x4096 (ix2 g b))
      (broadcastTo S129x4096 (addi (k0_pay4 x0) (broadcast S1x4096 1#32)) broadcasts_S1x4096_S129x4096 (ix2 g b))).setWidth 32 : BitVec 32).toInt : ℝ) : EReal) = _
  rw [broadcastTo_a1_ab_apply, broadcastTo_1b_ab_apply, iota_apply]
  rfl

/-- The column of knots as loaded. -/
theorem knots_eq (x2 : Vec Ideal S129x1 .f32) : k0_pay7 x2 = x2 := by
  unfold k0_pay7
  exact shapeCast_self _ _

end Cert.KernelIdeal.Cols

end
-- ==== Proof.Pay.lean ====
/-
  One grid point's contribution, read at an output index (o, b): the accumulator there plus the piecewise-linear
  function of x[i, b] over table column p[·, o, i]. The body forms it as a product of the 128 × 129 table slice with a
  129 × 4096 weight whose column b is (1 − d) at the cell's row, d at the next row and 0 elsewhere; the two row sums
  that make d and the contraction of the product all collapse onto the cell's rows.
-/
import proofs.«128965_j2293512536822_1_alg».proof.Proof.Gen.KernelIdeal.Skeleton
import proofs.«128965_j2293512536822_1_alg».proof.Proof.Interp
import proofs.«128965_j2293512536822_1_alg».proof.Proof.Cols
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.KernelIdeal.Cols Idealize.ShloMosaic Idealize.ShloMosaic.ValueIdx Cert.Interp

/-- A sum down the 129 rows, kept as a one-row block: at column b it is the sum of the column's entries. -/
theorem colsum_apply (v : FVec Ideal S129x4096 .f32) (hφ : FKind.Formats .f32)
    (hacc : (0x00000000#32 : BitVec 32) = 0x00000000#32) (b : Fin 4096) :
    shapeCast S1x4096 (multiReduction .add [0] S4096 v 0x00000000#32 reduces_S129x4096_S4096 hφ hacc) shapeCasts_S4096_S1x4096
        (ix2 (0 : Fin 1) b)
      = ∑ k : Fin 129, v (ix2 k b) := by
  refine (shapeCast_a_1a_apply _ _ (0 : Fin 1) b).trans ?_
  refine (Ideal.multiReduction_add_single v 0x00000000#32 reduces_S129x4096_S4096 hφ hacc (ix1 b)).trans ?_
  refine Finset.sum_congr rfl fun k _ => congrArg v ?_
  funext ax; apply Fin.ext
  match ax with
  | ⟨0, _⟩ => rfl
  | ⟨1, _⟩ => rfl

/-- The product of a 128 × 129 by a 129 × 4096 matrix into a zero accumulator, at (o, b): the sum over the 129 shared
    coordinates. -/
theorem dot_sum (A : FVec Ideal S128x129 .bf16) (B : FVec Ideal S129x4096 .bf16) (o : Fin 128) (b : Fin 4096) :
    matmul dot_S128x129_S129x4096_S128x4096_1_0_0_1_n_n none A B (constant S128x4096 .f32 0x00000000#32) (ix2 o b)
      = ∑ g : Fin 129, A (ix2 o g) * B (ix2 g b) := by
  show FloatOps.matmul _ none A B _ (ix2 o b) = _
  rw [Ideal.matmul_constant_zero_apply,
    ← Equiv.sum_comp (contrEquiv1 dot_S128x129_S129x4096_S128x4096_1_0_0_1_n_n 129 rfl rfl).symm]
  refine Finset.sum_congr rfl fun g _ => ?_
  have c2 := contrEquiv1_symm_val dot_S128x129_S129x4096_S128x4096_1_0_0_1_n_n 129 rfl rfl g
  have l2 : dot_S128x129_S129x4096_S128x4096_1_0_0_1_n_n.lhsIdx (ix2 o b) ((contrEquiv1 _ 129 rfl rfl).symm g) = ix2 o g := by
    funext ax; apply Fin.ext
    match ax with
    | ⟨0, _⟩ => simp [DotDims.lhsIdx, dot_S128x129_S129x4096_S128x4096_1_0_0_1_n_n]; rfl
    | ⟨1, _⟩ => simp [DotDims.lhsIdx, dot_S128x129_S129x4096_S128x4096_1_0_0_1_n_n]; exact c2
  have r2 : dot_S128x129_S129x4096_S128x4096_1_0_0_1_n_n.rhsIdx (ix2 o b) ((contrEquiv1 _ 129 rfl rfl).symm g) = ix2 g b := by
    funext ax; apply Fin.ext
    match ax with
    | ⟨0, _⟩ => simp [DotDims.rhsIdx, dot_S128x129_S129x4096_S128x4096_1_0_0_1_n_n]; exact c2
    | ⟨1, _⟩ => simp [DotDims.rhsIdx, dot_S128x129_S129x4096_S128x4096_1_0_0_1_n_n]; rfl
  rw [l2, r2]

set_option backward.isDefEq.respectTransparency.types false in
/-- The body's stored value at (o, b), for any masks and columns: the accumulator plus the table row o against the
    weight's column b, with d the product of the two masked row sums. -/
theorem stored_apply (v4 : FVec Ideal S1x4096 .f32) (v32 v37 : FVec Ideal S129x4096 .f32) (v39 : FVec Ideal S129x1 .f32)
    (v40 : Vec Ideal S129x1 .f32) (v60 : Vec Ideal S1x128x129 .bf16) (v63 : Vec Ideal S128x4096 .f32) (o : Fin 128) (b : Fin 4096) :
    k0_pay1 v4 v32 v37 v39 v40 v60 v63 (ix2 o b)
      = v63 (ix2 o b) + ∑ g : Fin 129, v60 (ix3 (0 : Fin 1) o g)
          * ((Ideal.ofBits .f32 0x3F800000#32
                - (v4 (ix2 (0 : Fin 1) b) - ∑ k : Fin 129, v32 (ix2 k b) * v39 (ix2 k (0 : Fin 1)))
                  * ∑ k : Fin 129, v32 (ix2 k b) * v40 (ix2 k (0 : Fin 1))) * v32 (ix2 g b)
            + ((v4 (ix2 (0 : Fin 1) b) - ∑ k : Fin 129, v32 (ix2 k b) * v39 (ix2 k (0 : Fin 1)))
                  * ∑ k : Fin 129, v32 (ix2 k b) * v40 (ix2 k (0 : Fin 1))) * v37 (ix2 g b)) := by
  unfold k0_pay1
  dsimp only
  rw [shapeCast_self v63, shapeCast_self v40]
  refine (congrArg (v63 (ix2 o b) + ·) (dot_sum _ _ o b)).trans ?_
  refine congrArg (v63 (ix2 o b) + ·) (Finset.sum_congr rfl fun g _ => ?_)
  rw [shapeCast_1ab_ab_apply]
  simp only [truncf_apply, addf_apply, mulf_apply, subf_apply, broadcast_apply, broadcastTo_1b_ab_apply,
    broadcastTo_a1_ab_apply]
  rw [colsum_apply, colsum_apply]
  simp only [mulf_apply, broadcastTo_a1_ab_apply]
  rfl

/-- With the masks the body builds from the row of x: the accumulator plus the piecewise-linear function of the entry. -/
theorem step_apply (x0 : Vec Ideal S1x1x4096 .f32) (x1 : Vec Ideal S1x128x129 .bf16) (x2 x3 : Vec Ideal S129x1 .f32)
    (acc : Vec Ideal S128x4096 .f32) (o : Fin 128) (b : Fin 4096) :
    k0_pay1 (k0_pay3 x0) (k0_pay5 x0) (k0_pay6 x0) (k0_pay7 x2) x3 x1 acc (ix2 o b)
      = acc (ix2 o b) + term (x0 (ix3 (0 : Fin 1) (0 : Fin 1) b)) (fun g => x2 (ix2 g (0 : Fin 1)))
          (fun g => x3 (ix2 g (0 : Fin 1))) (fun g => x1 (ix3 (0 : Fin 1) o g)) := by
  rw [stored_apply, knots_eq, row_apply]
  simp only [here_apply, next_apply]
  have hc := cell_le (x0 (ix3 (0 : Fin 1) (0 : Fin 1) b))
  rw [sum_hot (by norm_num) _ (by omega) (fun k : Fin 129 => x2 (ix2 k (0 : Fin 1))),
    sum_hot (by norm_num) _ (by omega) (fun k : Fin 129 => x3 (ix2 k (0 : Fin 1))),
    sum_two_hot (by norm_num) _ (by omega) _ _ (fun g : Fin 129 => x1 (ix3 (0 : Fin 1) o g))]
  rfl

end Cert.KernelIdeal.Pay

end
-- ==== Proof.Blocks.lean ====
/-
  What each input block of a grid point holds, in terms of the four argument arrays. Point n of the 2 × 128 grid is
  batch tile n / 128 and input row n % 128: it sees the 4096 entries x[n % 128, (n / 128)·4096 + ·], the table slice
  p[·, ·, n % 128] transposed, the 129 knots and the 128 reciprocal cell lengths (followed by one zero, never read below).
-/
import proofs.«128965_j2293512536822_1_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The block index of each input window at each of the 256 grid points. -/
theorem idx_facts : ∀ t : Fin cfg0.N,
    win0_0.index t (0 : Fin 3) = t.val % 128 ∧ win0_0.index t (1 : Fin 3) = 0 ∧ win0_0.index t (2 : Fin 3) = t.val / 128
    ∧ win0_1.index t (0 : Fin 3) = t.val % 128 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- x with a unit axis inserted. -/
theorem x_arr (c : Dev nD) : (V m c main_v0 : S128x1x8192.Idx → EReal)
    = shapeCast S128x1x8192 (m ((c : Thread nD τ).loc main_arg0)) shapeCasts_S128x8192_S128x1x8192 := by
  dsimp only [Gen.V, Gen.hostOps0]; after_results; try rfl

/-- The table with its axes reversed (a change of float format is the identity on the extended reals). -/
theorem p_arr (c : Dev nD) : (V m c main_v2 : S128x128x129.Idx → EReal)
    = (truncf (F := Ideal) .bf16 (transpose S128x128x129 [2, 1, 0] (m ((c : Thread nD τ).loc main_arg1))
        transposes_S129x128x128_S128x128x129_2_1_0) bitsLt_bf16_f32 : S128x128x129.Idx → EReal) := by
  dsimp only [Gen.V, Gen.hostOps0]; after_results; try rfl

/-- The knots as a column. -/
theorem b_arr (c : Dev nD) : (V m c main_v3 : S129x1.Idx → EReal)
    = shapeCast S129x1 (m ((c : Thread nD τ).loc main_arg2)) shapeCasts_S129_S129x1 := by
  dsimp only [Gen.V, Gen.hostOps0]; after_results; try rfl

/-- The reciprocal lengths followed by one zero, as a column. -/
theorem l_arr (c : Dev nD) : (V m c main_v6 : S129x1.Idx → EReal)
    = shapeCast S129x1 (concatenate S129 0 [⟨S128, m ((c : Thread nD τ).loc main_arg3)⟩,
        ⟨S1, broadcastInDim S1 ![] bcast_S_S1 (constant (F := Ideal) S_ .f32 0x00000000#32)⟩] concatenates_S128_S1_S129_d0)
        shapeCasts_S129_S129x1 := by
  dsimp only [Gen.V, Gen.hostOps0]; after_results; try rfl

/-- Entry b of the row of x that point n loads. -/
theorem x_blk (c : Dev nD) (n : ℕ) (h : n < cfg0.N) (b : Fin 4096) :
    (iblk m c 0 ⟨n, h⟩ (ix3 (0 : Fin 1) (0 : Fin 1) b) : EReal)
      = m ((c : Thread nD τ).loc main_arg0) (ix2 (⟨n % 128, Nat.mod_lt _ (by decide)⟩ : Fin 128)
          (⟨n / 128 * 4096 + b.val, by have hN : cfg0.N = 256 := N_0; have := b.isLt; omega⟩ : Fin 8192)) := by
  show V m c main_v0 (((cfg0.win 0).blk ⟨n, h⟩).view.emb (ix3 (0 : Fin 1) (0 : Fin 1) b)) = _
  rw [x_arr]
  obtain ⟨e0, e1, e2, -⟩ := idx_facts ⟨n, h⟩
  have e0' : win0_0.index ⟨n, h⟩ (0 : Fin 3) = n % 128 := e0
  have e2' : win0_0.index ⟨n, h⟩ (2 : Fin 3) = n / 128 := e2
  refine shapeCast_apply _ _ _ _ ?_
  show ((⟨2, ![128, 8192]⟩ : Shape).rowMajor (ix2 _ _)).val = ((⟨3, ![128, 1, 8192]⟩ : Shape).rowMajor _).val
  rw [Shape.rowMajor_val_two, Shape.rowMajor_val_three]
  show (n % 128) * 8192 + (n / 128 * 4096 + b.val)
    = ((win0_0.index ⟨n, h⟩ (0 : Fin 3) * 1 + 1 * 0) * 1 + (win0_0.index ⟨n, h⟩ (1 : Fin 3) * 1 + 1 * 0)) * 8192
      + (win0_0.index ⟨n, h⟩ (2 : Fin 3) * 4096 + 1 * b.val)
  rw [e0', e1, e2']
  omega

/-- Entry (o, g) of the table slice that point n loads. -/
theorem p_blk (c : Dev nD) (n : ℕ) (h : n < cfg0.N) (o : Fin 128) (g : Fin 129) :
    (iblk m c 1 ⟨n, h⟩ (ix3 (0 : Fin 1) o g) : EReal)
      = m ((c : Thread nD τ).loc main_arg1) (ix3 g o (⟨n % 128, Nat.mod_lt _ (by decide)⟩ : Fin 128)) := by
  show V m c main_v2 (((cfg0.win 1).blk ⟨n, h⟩).view.emb (ix3 (0 : Fin 1) o g)) = _
  rw [p_arr]
  obtain ⟨-, -, -, e0, e1, e2, -⟩ := idx_facts ⟨n, h⟩
  have e0' : win0_1.index ⟨n, h⟩ (0 : Fin 3) = n % 128 := e0
  show transpose S128x128x129 [2, 1, 0] (m ((c : Thread nD τ).loc main_arg1)) transposes_S129x128x128_S128x128x129_2_1_0
    (((cfg0.win 1).blk ⟨n, h⟩).view.emb (ix3 (0 : Fin 1) o g)) = _
  refine transpose_apply _ _ _ _ _ fun bx => ?_
  match bx with
  | ⟨0, _⟩ =>
    show n % 128 = win0_1.index ⟨n, h⟩ (0 : Fin 3) * 1 + 1 * 0
    rw [e0']; omega
  | ⟨1, _⟩ =>
    show o.val = win0_1.index ⟨n, h⟩ (1 : Fin 3) * 128 + 1 * o.val
    rw [e1]; omega
  | ⟨2, _⟩ =>
    show g.val = win0_1.index ⟨n, h⟩ (2 : Fin 3) * 129 + 1 * g.val
    rw [e2]; omega

/-- Entry g of the column of knots, the same at every point. -/
theorem b_blk (c : Dev nD) (n : ℕ) (h : n < cfg0.N) (g : Fin 129) :
    (iblk m c 2 ⟨n, h⟩ (ix2 g (0 : Fin 1)) : EReal) = m ((c : Thread nD τ).loc main_arg2) (ix1 g) := by
  show V m c main_v3 (((cfg0.win 2).blk ⟨n, h⟩).view.emb (ix2 g (0 : Fin 1))) = _
  rw [b_arr]
  obtain ⟨-, -, -, -, -, -, e0, e1, -⟩ := idx_facts ⟨n, h⟩
  refine shapeCast_apply _ _ _ _ ?_
  show ((⟨1, ![129]⟩ : Shape).rowMajor (ix1 _)).val = ((⟨2, ![129, 1]⟩ : Shape).rowMajor _).val
  rw [Shape.rowMajor_val_one, Shape.rowMajor_val_two]
  show g.val = (win0_2.index ⟨n, h⟩ (0 : Fin 2) * 129 + 1 * g.val) * 1 + (win0_2.index ⟨n, h⟩ (1 : Fin 2) * 1 + 1 * 0)
  rw [e0, e1]; omega

/-- Entry g < 128 of the column of reciprocal lengths, the same at every point. -/
theorem l_blk (c : Dev nD) (n : ℕ) (h : n < cfg0.N) (g : Fin 129) (hg : g.val < 128) :
    (iblk m c 3 ⟨n, h⟩ (ix2 g (0 : Fin 1)) : EReal) = m ((c : Thread nD τ).loc main_arg3) (ix1 (⟨g.val, hg⟩ : Fin 128)) := by
  show V m c main_v6 (((cfg0.win 3).blk ⟨n, h⟩).view.emb (ix2 g (0 : Fin 1))) = _
  rw [l_arr]
  obtain ⟨-, -, -, -, -, -, -, -, e0, e1⟩ := idx_facts ⟨n, h⟩
  refine (shapeCast_apply _ _ _ (ix1 g) ?_).trans ?_
  · show ((⟨1, ![129]⟩ : Shape).rowMajor (ix1 _)).val = ((⟨2, ![129, 1]⟩ : Shape).rowMajor _).val
    rw [Shape.rowMajor_val_one, Shape.rowMajor_val_two]
    show g.val = (win0_3.index ⟨n, h⟩ (0 : Fin 2) * 129 + 1 * g.val) * 1 + (win0_3.index ⟨n, h⟩ (1 : Fin 2) * 1 + 1 * 0)
    rw [e0, e1]; omega
  · refine concatenate_pair_apply_left (t := S129) (s₁ := S128) (s₂ := S1) (0 : Fin 1) _ _ concatenates_S128_S1_S129_d0 (ix1 g) rfl (ix1 (⟨g.val, hg⟩ : Fin 128)) fun bx => ?_
    match bx with
    | ⟨0, _⟩ => rfl

end Cert.KernelIdeal.Blocks

end
-- ==== Proof.Fold.lean ====
/-
  The kernel's output as one function of the argument arrays. Output block (·, tile q) is zeroed at input row 0 and then
  receives, for each input row i = 0 … 127 in turn, the piecewise-linear function of x[i, ·] over table column
  p[·, o, i]. So entry (o, b) of the result is 0 plus the sum over the 128 input rows of those values: sums on the
  extended reals are associative, so the order of accumulation does not matter.
-/
import proofs.«128965_j2293512536822_1_alg».proof.Proof.Gen.KernelIdeal.Value
import proofs.«128965_j2293512536822_1_alg».proof.Proof.Interp
import proofs.«128965_j2293512536822_1_alg».proof.Proof.Pay
import proofs.«128965_j2293512536822_1_alg».proof.Proof.Blocks
import Idealize.ShloMosaic.Lib.ValueIdx
import Idealize.ShloMosaic.Lib.Pipeline.Value

noncomputable section

namespace Cert.KernelIdeal.Fold

open Cert.KernelIdeal Cert.KernelIdeal.Gen Cert.KernelIdeal.Pay Cert.KernelIdeal.Blocks Cert.Interp
open Idealize.ShloMosaic Idealize.ShloMosaic.ValueIdx Idealize.ShloMosaic.TcCoe Idealize.SL.Sem

variable (m : (ℓ : Loc nD τ sig) → Buf (Elt Ideal) ℓ)

/-- The 129 knots. -/
def knots (c : Dev nD) : Fin 129 → EReal := fun g => m ((c : Thread nD τ).loc main_arg2) (ix1 g)

/-- The 128 reciprocal cell lengths, continued by zero to a 129th row that is never read. -/
def lens (c : Dev nD) : Fin 129 → EReal := fun g =>
  if h : g.val < 128 then m ((c : Thread nD τ).loc main_arg3) (ix1 (⟨g.val, h⟩ : Fin 128)) else 0

/-- The table's column for output o and input row i, over the 129 knots. -/
def col (c : Dev nD) (o i : Fin 128) : Fin 129 → EReal := fun g => m ((c : Thread nD τ).loc main_arg1) (ix3 g o i)

/-- What grid point n adds to entry (o, b) of its output block. -/
def addend (c : Dev nD) (n : ℕ) (o : Fin 128) (b : Fin 4096) : EReal :=
  if h : n < cfg0.N then
    term (m ((c : Thread nD τ).loc main_arg0) (ix2 (⟨n % 128, Nat.mod_lt _ (by decide)⟩ : Fin 128)
        (⟨n / 128 * 4096 + b.val, by have hN : cfg0.N = 256 := N_0; have := b.isLt; omega⟩ : Fin 8192)))
      (knots m c) (lens m c) (col m c o ⟨n % 128, Nat.mod_lt _ (by decide)⟩)
  else 0

/-- One grid point's step on the block, at an entry: what was there plus the point's addend. -/
theorem point_term (c : Dev nD) (n : ℕ) (h : n < cfg0.N) (acc : Vec Ideal S128x4096 .f32) (o : Fin 128) (b : Fin 4096) :
    Value.step4 m c n h acc (ix2 o b) = acc (ix2 o b) + addend m c n o b := by
  unfold Value.step4 addend
  rw [dif_pos h]
  refine (step_apply (iblk m c 0 ⟨n, h⟩) (iblk m c 1 ⟨n, h⟩) (iblk m c 2 ⟨n, h⟩) (iblk m c 3 ⟨n, h⟩) acc o b).trans ?_
  refine congrArg (acc (ix2 o b) + ·) (term_congr (x_blk m c n h b) (fun g => b_blk m c n h g)
    (fun g hg => (l_blk m c n h g hg).trans (by unfold lens; rw [dif_pos hg])) (fun g => p_blk m c n h o g))

/-- The first point of a tile starts from the zero block. -/
theorem first_term (c : Dev nD) (n : ℕ) (h : n < cfg0.N) (o : Fin 128) (b : Fin 4096) :
    Value.reset4 m c n h (ix2 o b) = 0 + addend m c n o b := by
  show Value.step4 m c n h (k0_pay2 (F := Ideal)) (ix2 o b) = _
  rw [point_term]
  show Ideal.ofBits .f32 0x00000000#32 + _ = _
  rw [Ideal.ofBits_zero_f32]

/-- After j + 1 points of tile q the block holds 0 plus the sum of their addends. -/
theorem fold_apply (c : Dev nD) (q : ℕ) : ∀ (j : ℕ) (h : 128 * q + j < cfg0.N) (o : Fin 128) (b : Fin 4096),
    Pipeline.accAt (Value.reset4 m c) (Value.step4 m c) (128 * q) j h (ix2 o b)
      = 0 + ∑ s ∈ Finset.range (j + 1), addend m c (128 * q + s) o b
  | 0, h, o, b => by
    rw [Pipeline.accAt_zero, Finset.sum_range_one, first_term]
    rfl
  | j + 1, h, o, b => by
    rw [Pipeline.accAt_succ, point_term, fold_apply c q j _ o b, Finset.sum_range_succ _ (j + 1), add_assoc]

/-- THE KERNEL'S RESULT at (o, b): 0 plus the sum over the 128 input rows of the piecewise-linear function of x[i, b]
    over the knots, the reciprocal lengths and the table column for (o, i). -/
theorem result_apply (c : Dev nD) (o : Fin 128) (bb : Fin 8192) :
    Value.G4 m c (ix2 o bb)
      = 0 + ∑ i : Fin 128, term (m ((c : Thread nD τ).loc main_arg0) (ix2 i bb)) (knots m c) (lens m c) (col m c o i) := by
  have hN : cfg0.N = 256 := N_0
  have hbb := bb.isLt
  have ho := o.isLt
  have hq : Value.run4Of (ix2 o bb) = bb.val / 4096 := by
    show 2 * (o.val / 128 - 0) + 1 * (bb.val / 4096 - 0) = _
    omega
  have hl : Value.loc4Of (ix2 o bb) = ix2 o (⟨bb.val % 4096, Nat.mod_lt _ (by decide)⟩ : Fin 4096) := by
    funext a; apply Fin.ext
    match a with
    | ⟨0, _⟩ => show o.val % 128 = o.val; omega
    | ⟨1, _⟩ => rfl
  have e : ∀ (b b' : ℕ) (h : b + 127 < cfg0.N) (h' : b' + 127 < cfg0.N), b = b' →
      Pipeline.accAt (Value.reset4 m c) (Value.step4 m c) b 127 h = Pipeline.accAt (Value.reset4 m c) (Value.step4 m c) b' 127 h' := by
    intro b b' h h' hb; subst hb; rfl
  unfold Value.G4
  rw [dif_pos (by rw [hq]; omega), hl, e _ (128 * (bb.val / 4096)) _ (by omega) (by rw [hq]),
    fold_apply m c (bb.val / 4096) 127 (by omega) o _, Finset.sum_range]
  refine congrArg (0 + ·) (Finset.sum_congr rfl fun i _ => ?_)
  have hi := i.isLt
  unfold addend
  rw [dif_pos (by omega)]
  have h1 : (⟨(128 * (bb.val / 4096) + i.val) % 128, Nat.mod_lt _ (by decide)⟩ : Fin 128) = i := Fin.ext (by show (128 * (bb.val / 4096) + i.val) % 128 = i.val; omega)
  have h2 : ∀ hp, (⟨(128 * (bb.val / 4096) + i.val) / 128 * 4096 + bb.val % 4096, hp⟩ : Fin 8192) = bb := fun hp =>
    Fin.ext (by show (128 * (bb.val / 4096) + i.val) / 128 * 4096 + bb.val % 4096 = bb.val; omega)
  rw [h1, h2]

end Cert.KernelIdeal.Fold

end
-- ==== Proof.RefRun.lean ====
/- The reference's run. Its @main is a straight line of 113 host operations, each writing one buffer of its own. Every
  weakly fair execution terminates with each buffer at the fold of the operations' results over the launch contents;
  read stretch by stretch (the line is cut into 11 stretches, a cut before each of the 2 concatenations), every
  buffer a later stretch still reads holds its stage value as a function of the four arguments, and the arguments are
  never written. So the result buffer ends at the last stage of the four arguments, and the arguments end as launched.
-/
import proofs.«128965_j2293512536822_1_alg».proof.Proof.RefStages
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- @main's 113 operations, in order (a called function's operations stand in its call's place). -/
abbrev ops : List (HloOp τ sig (Elt F)) :=
  [ unary main_arg0 main_v0 (Host.absf : (⟨S128x8192, .f32⟩ : BufTy).Contents (Elt F) → (⟨S128x8192, .f32⟩ : BufTy).Contents (Elt F)),
    unary main_v0 main_v1 (Host.negf : (⟨S128x8192, .f32⟩ : BufTy).Contents (Elt F) → (⟨S128x8192, .f32⟩ : BufTy).Contents (Elt F)),
    unary main_v1 main_v2 (Host.exp : (⟨S128x8192, .f32⟩ : BufTy).Contents (Elt F) → (⟨S128x8192, .f32⟩ : BufTy).Contents (Elt F)),
    nullary main_cst (constant S_ .f32 0x00000000#32),
    unary main_cst main_v3 (broadcastInDim S128x8192 ![] bcast_S_S128x8192 : (⟨S_, .f32⟩ : BufTy).Contents (Elt F) → (⟨S128x8192, .f32⟩ : BufTy).Contents (Elt F)),
    binary main_arg0 main_v3 main_v4 (cmpf .ogt : (⟨S128x8192, .f32⟩ : BufTy).Contents (Elt F) → (⟨S128x8192, .f32⟩ : BufTy).Contents (Elt F) → (⟨S128x8192, .i1⟩ : BufTy).Contents (Elt F)),
    nullary main_cst_0 (constant S_ .f32 0x3F000000#32),
    unary main_cst_0 main_v5 (broadcastInDim S128x8192 ![] bcast_S_S128x8192 : (⟨S_, .f32⟩ : BufTy).Contents (Elt F) → (⟨S128x8192, .f32⟩ : BufTy).Contents (Elt F)),
    binary main_v5 main_v2 main_v6 (mulf : (⟨S128x8192, .f32⟩ : BufTy).Contents (Elt F) → (⟨S128x8192, .f32⟩ : BufTy).Contents (Elt F) → (⟨S128x8192, .f32⟩ : BufTy).Contents (Elt F)),
    nullary main_cst_1 (constant S_ .f32 0x3F800000#32),
    unary main_cst_1 main_v7 (broadcastInDim S128x8192 ![] bcast_S_S128x8192 : (⟨S_, .f32⟩ : BufTy).Contents (Elt F) → (⟨S128x8192, .f32⟩ : BufTy).Contents (Elt F)),
    binary main_v7 main_v6 main_v8 (subf : (⟨S128x8192, .f32⟩ : BufTy).Contents (Elt F) → (⟨S128x8192, .f32⟩ : BufTy).Contents (Elt F) → (⟨S128x8192, .f32⟩ : BufTy).Contents (Elt F)),
    nullary main_cst_2 (constant S_ .f32 0x3F000000#32),
    unary main_cst_2 main_v9 (broadcastInDim S128x8192 ![] bcast_S_S128x8192 : (⟨S_, .f32⟩ : BufTy).Contents (Elt F) → (⟨S128x8192, .f32⟩ : BufTy).Contents (Elt F)),
    binary main_v9 main_v2 main_v10 (mulf : (⟨S128x8192, .f32⟩ : BufTy).Contents (Elt F) → (⟨S128x8192, .f32⟩ : BufTy).Contents (Elt F) → (⟨S128x8192, .f32⟩ : BufTy).Contents (Elt F)),
    TRef.ternary (TRef.of (T := ⟨S128x8192, .i1⟩) main_v4) (TRef.of (T := ⟨S128x8192, .f32⟩) main_v8) (TRef.of (T := ⟨S128x8192, .f32⟩) main_v10) (TRef.of (T := ⟨S128x8192, .f32⟩) main_v11) select,
    nullary main_cst_3 (constant S_ .f32 0x43000000#32),
    unary main_cst_3 main_v12 (broadcastInDim S128x8192 ![] bcast_S_S128x8192 : (⟨S_, .f32⟩ : BufTy).Contents (Elt F) → (⟨S128x8192, .f32⟩ : BufTy).Contents (Elt F)),
    binary main_v11 main_v12 main_v13 (mulf : (⟨S128x8192, .f32⟩ : BufTy).Contents (Elt F) → (⟨S128x8192, .f32⟩ : BufTy).Contents (Elt F) → (⟨S128x8192, .f32⟩ : BufTy).Contents (Elt F)),
    unary main_v13 main_v14 (fptosi 32 : (⟨S128x8192, .f32⟩ : BufTy).Contents (Elt F) → (⟨S128x8192, .i32⟩ : BufTy).Contents (Elt F)),
    nullary main_c (constantI S_ 32 0#32),
    nullary main_c_4 (constantI S_ 32 127#32),
    TRef.unary (TRef.of (T := ⟨S_, .i32⟩) main_c) (TRef.of (T := ⟨S_, .i32⟩) main_call1_v0) id,
    TRef.unary (TRef.of (T := ⟨S_, .i32⟩) main_call1_v0) (TRef.of (T := ⟨S128x8192, .i32⟩) main_call1_v1) (broadcastInDim S128x8192 ![] bcast_S_S128x8192),
    TRef.binary (TRef.of (T := ⟨S128x8192, .i32⟩) main_call1_v1) (TRef.of (T := ⟨S128x8192, .i32⟩) main_v14) (TRef.of (T := ⟨S128x8192, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S128x8192, .i32⟩) main_call1_v4) (broadcastInDim S128x8192 ![] bcast_S_S128x8192),
    TRef.binary (TRef.of (T := ⟨S128x8192, .i32⟩) main_call1_v4) (TRef.of (T := ⟨S128x8192, .i32⟩) main_call1_v2) (TRef.of (T := ⟨S128x8192, .i32⟩) main_v15) minsi,
    nullary main_c_5 (constantI S_ 32 1#32),
    unary main_c_5 main_v16 (broadcastInDim S128x8192 ![] bcast_S_S128x8192 : (⟨S_, .i32⟩ : BufTy).Contents (Elt F) → (⟨S128x8192, .i32⟩ : BufTy).Contents (Elt F)),
    binary main_v15 main_v16 main_v17 (addi : (⟨S128x8192, .i32⟩ : BufTy).Contents (Elt F) → (⟨S128x8192, .i32⟩ : BufTy).Contents (Elt F) → (⟨S128x8192, .i32⟩ : BufTy).Contents (Elt F)),
    nullary main_c_6 (constantI S_ 32 0#32),
    nullary main_c_7 (constantI S_ 32 128#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S128x8192, .i32⟩) main_call2_v1) (broadcastInDim S128x8192 ![] bcast_S_S128x8192),
    TRef.binary (TRef.of (T := ⟨S128x8192, .i32⟩) main_call2_v1) (TRef.of (T := ⟨S128x8192, .i32⟩) main_v17) (TRef.of (T := ⟨S128x8192, .i32⟩) main_call2_v2) maxsi,
    TRef.unary (TRef.of (T := ⟨S_, .i32⟩) main_c_7) (TRef.of (T := ⟨S_, .i32⟩) main_call2_v3) id,
    TRef.unary (TRef.of (T := ⟨S_, .i32⟩) main_call2_v3) (TRef.of (T := ⟨S128x8192, .i32⟩) main_call2_v4) (broadcastInDim S128x8192 ![] bcast_S_S128x8192),
    TRef.binary (TRef.of (T := ⟨S128x8192, .i32⟩) main_call2_v4) (TRef.of (T := ⟨S128x8192, .i32⟩) main_call2_v2) (TRef.of (T := ⟨S128x8192, .i32⟩) main_v18) minsi,
    nullary main_c_8 (constantI S_ 32 0#32),
    unary main_c_8 main_v19 (broadcastInDim S128x8192 ![] bcast_S_S128x8192 : (⟨S_, .i32⟩ : BufTy).Contents (Elt F) → (⟨S128x8192, .i32⟩ : BufTy).Contents (Elt F)),
    binary main_v15 main_v19 main_v20 (cmpi .slt : (⟨S128x8192, .i32⟩ : BufTy).Contents (Elt F) → (⟨S128x8192, .i32⟩ : BufTy).Contents (Elt F) → (⟨S128x8192, .i1⟩ : BufTy).Contents (Elt F)),
    nullary main_c_9 (constantI S_ 32 129#32),
    unary main_c_9 main_v21 (broadcastInDim S128x8192 ![] bcast_S_S128x8192 : (⟨S_, .i32⟩ : BufTy).Contents (Elt F) → (⟨S128x8192, .i32⟩ : BufTy).Contents (Elt F)),
    binary main_v15 main_v21 main_v22 (addi : (⟨S128x8192, .i32⟩ : BufTy).Contents (Elt F) → (⟨S128x8192, .i32⟩ : BufTy).Contents (Elt F) → (⟨S128x8192, .i32⟩ : BufTy).Contents (Elt F)),
    ternary main_v20 main_v22 main_v15 main_v23 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v23 main_v24 (broadcastInDim S128x8192x1 ![0, 1] bcast_S128x8192_S128x8192x1_0_1 : (⟨S128x8192, .i32⟩ : BufTy).Contents (Elt F) → (⟨S128x8192x1, .i32⟩ : BufTy).Contents (Elt F)),
    binary main_arg2 main_v24 main_v25 ((fun x i => Host.gather gather_S129_S128x8192x1_S128x8192_n_0_n_n_0_2_1 x i) : (⟨S129, .f32⟩ : BufTy).Contents (Elt F) → (⟨S128x8192x1, .i32⟩ : BufTy).Contents (Elt F) → (⟨S128x8192, .f32⟩ : BufTy).Contents (Elt F)),
    nullary main_c_10 (constantI S_ 32 0#32),
    unary main_c_10 main_v26 (broadcastInDim S128x8192 ![] bcast_S_S128x8192 : (⟨S_, .i32⟩ : BufTy).Contents (Elt F) → (⟨S128x8192, .i32⟩ : BufTy).Contents (Elt F)),
    binary main_v15 main_v26 main_v27 (cmpi .slt : (⟨S128x8192, .i32⟩ : BufTy).Contents (Elt F) → (⟨S128x8192, .i32⟩ : BufTy).Contents (Elt F) → (⟨S128x8192, .i1⟩ : BufTy).Contents (Elt F)),
    nullary main_c_11 (constantI S_ 32 128#32),
    unary main_c_11 main_v28 (broadcastInDim S128x8192 ![] bcast_S_S128x8192 : (⟨S_, .i32⟩ : BufTy).Contents (Elt F) → (⟨S128x8192, .i32⟩ : BufTy).Contents (Elt F)),
    binary main_v15 main_v28 main_v29 (addi : (⟨S128x8192, .i32⟩ : BufTy).Contents (Elt F) → (⟨S128x8192, .i32⟩ : BufTy).Contents (Elt F) → (⟨S128x8192, .i32⟩ : BufTy).Contents (Elt F)),
    ternary main_v27 main_v29 main_v15 main_v30 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v30 main_v31 (broadcastInDim S128x8192x1 ![0, 1] bcast_S128x8192_S128x8192x1_0_1 : (⟨S128x8192, .i32⟩ : BufTy).Contents (Elt F) → (⟨S128x8192x1, .i32⟩ : BufTy).Contents (Elt F)),
    binary main_arg3 main_v31 main_v32 ((fun x i => Host.gather gather_S128_S128x8192x1_S128x8192_n_0_n_n_0_2_1 x i) : (⟨S128, .f32⟩ : BufTy).Contents (Elt F) → (⟨S128x8192x1, .i32⟩ : BufTy).Contents (Elt F) → (⟨S128x8192, .f32⟩ : BufTy).Contents (Elt F)),
    binary main_arg0 main_v25 main_v33 (subf : (⟨S128x8192, .f32⟩ : BufTy).Contents (Elt F) → (⟨S128x8192, .f32⟩ : BufTy).Contents (Elt F) → (⟨S128x8192, .f32⟩ : BufTy).Contents (Elt F)),
    binary main_v33 main_v32 main_v34 (mulf : (⟨S128x8192, .f32⟩ : BufTy).Contents (Elt F) → (⟨S128x8192, .f32⟩ : BufTy).Contents (Elt F) → (⟨S128x8192, .f32⟩ : BufTy).Contents (Elt F)),
    unary main_arg1 main_v35 ((transpose S128x129x128 [2, 0, 1] · transposes_S129x128x128_S128x129x128_2_0_1) : (⟨S129x128x128, .f32⟩ : BufTy).Contents (Elt F) → (⟨S128x129x128, .f32⟩ : BufTy).Contents (Elt F)),
    nullary main_v36 (iotaInDim S128 32 0),
    unary main_v36 main_v37 (broadcastInDim S128x1 ![0] bcast_S128_S128x1_0 : (⟨S128, .i32⟩ : BufTy).Contents (Elt F) → (⟨S128x1, .i32⟩ : BufTy).Contents (Elt F)),
    nullary main_c_12 (constantI S_ 32 0#32),
    unary main_c_12 main_v38 (broadcastInDim S128x1 ![] bcast_S_S128x1 : (⟨S_, .i32⟩ : BufTy).Contents (Elt F) → (⟨S128x1, .i32⟩ : BufTy).Contents (Elt F)),
    binary main_v37 main_v38 main_v39 (cmpi .slt : (⟨S128x1, .i32⟩ : BufTy).Contents (Elt F) → (⟨S128x1, .i32⟩ : BufTy).Contents (Elt F) → (⟨S128x1, .i1⟩ : BufTy).Contents (Elt F)),
    nullary main_c_13 (constantI S_ 32 128#32),
    unary main_c_13 main_v40 (broadcastInDim S128x1 ![] bcast_S_S128x1 : (⟨S_, .i32⟩ : BufTy).Contents (Elt F) → (⟨S128x1, .i32⟩ : BufTy).Contents (Elt F)),
    binary main_v37 main_v40 main_v41 (addi : (⟨S128x1, .i32⟩ : BufTy).Contents (Elt F) → (⟨S128x1, .i32⟩ : BufTy).Contents (Elt F) → (⟨S128x1, .i32⟩ : BufTy).Contents (Elt F)),
    ternary main_v39 main_v41 main_v37 main_v42 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_14 (constantI S_ 32 0#32),
    unary main_c_14 main_v43 (broadcastInDim S128x8192 ![] bcast_S_S128x8192 : (⟨S_, .i32⟩ : BufTy).Contents (Elt F) → (⟨S128x8192, .i32⟩ : BufTy).Contents (Elt F)),
    binary main_v15 main_v43 main_v44 (cmpi .slt : (⟨S128x8192, .i32⟩ : BufTy).Contents (Elt F) → (⟨S128x8192, .i32⟩ : BufTy).Contents (Elt F) → (⟨S128x8192, .i1⟩ : BufTy).Contents (Elt F)),
    nullary main_c_15 (constantI S_ 32 129#32),
    unary main_c_15 main_v45 (broadcastInDim S128x8192 ![] bcast_S_S128x8192 : (⟨S_, .i32⟩ : BufTy).Contents (Elt F) → (⟨S128x8192, .i32⟩ : BufTy).Contents (Elt F)),
    binary main_v15 main_v45 main_v46 (addi : (⟨S128x8192, .i32⟩ : BufTy).Contents (Elt F) → (⟨S128x8192, .i32⟩ : BufTy).Contents (Elt F) → (⟨S128x8192, .i32⟩ : BufTy).Contents (Elt F)),
    ternary main_v44 main_v46 main_v15 main_v47 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v42 main_v48 (broadcastInDim S128x8192 ![0, 1] bcast_S128x1_S128x8192_0_1 : (⟨S128x1, .i32⟩ : BufTy).Contents (Elt F) → (⟨S128x8192, .i32⟩ : BufTy).Contents (Elt F)),
    unary main_v48 main_v49 (broadcastInDim S128x8192x1 ![0, 1] bcast_S128x8192_S128x8192x1_0_1 : (⟨S128x8192, .i32⟩ : BufTy).Contents (Elt F) → (⟨S128x8192x1, .i32⟩ : BufTy).Contents (Elt F)),
    unary main_v47 main_v50 (broadcastInDim S128x8192x1 ![0, 1] bcast_S128x8192_S128x8192x1_0_1 : (⟨S128x8192, .i32⟩ : BufTy).Contents (Elt F) → (⟨S128x8192x1, .i32⟩ : BufTy).Contents (Elt F)),
    binary main_v49 main_v50 main_v51 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v51 main_v52 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)),
    nullary main_c_16 (constantI S_ 32 0#32),
    unary main_c_16 main_v53 (broadcastInDim S128x1 ![] bcast_S_S128x1 : (⟨S_, .i32⟩ : BufTy).Contents (Elt F) → (⟨S128x1, .i32⟩ : BufTy).Contents (Elt F)),
    binary main_v37 main_v53 main_v54 (cmpi .slt : (⟨S128x1, .i32⟩ : BufTy).Contents (Elt F) → (⟨S128x1, .i32⟩ : BufTy).Contents (Elt F) → (⟨S128x1, .i1⟩ : BufTy).Contents (Elt F)),
    nullary main_c_17 (constantI S_ 32 128#32),
    unary main_c_17 main_v55 (broadcastInDim S128x1 ![] bcast_S_S128x1 : (⟨S_, .i32⟩ : BufTy).Contents (Elt F) → (⟨S128x1, .i32⟩ : BufTy).Contents (Elt F)),
    binary main_v37 main_v55 main_v56 (addi : (⟨S128x1, .i32⟩ : BufTy).Contents (Elt F) → (⟨S128x1, .i32⟩ : BufTy).Contents (Elt F) → (⟨S128x1, .i32⟩ : BufTy).Contents (Elt F)),
    ternary main_v54 main_v56 main_v37 main_v57 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_18 (constantI S_ 32 0#32),
    unary main_c_18 main_v58 (broadcastInDim S128x8192 ![] bcast_S_S128x8192 : (⟨S_, .i32⟩ : BufTy).Contents (Elt F) → (⟨S128x8192, .i32⟩ : BufTy).Contents (Elt F)),
    binary main_v18 main_v58 main_v59 (cmpi .slt : (⟨S128x8192, .i32⟩ : BufTy).Contents (Elt F) → (⟨S128x8192, .i32⟩ : BufTy).Contents (Elt F) → (⟨S128x8192, .i1⟩ : BufTy).Contents (Elt F)),
    nullary main_c_19 (constantI S_ 32 129#32),
    unary main_c_19 main_v60 (broadcastInDim S128x8192 ![] bcast_S_S128x8192 : (⟨S_, .i32⟩ : BufTy).Contents (Elt F) → (⟨S128x8192, .i32⟩ : BufTy).Contents (Elt F)),
    binary main_v18 main_v60 main_v61 (addi : (⟨S128x8192, .i32⟩ : BufTy).Contents (Elt F) → (⟨S128x8192, .i32⟩ : BufTy).Contents (Elt F) → (⟨S128x8192, .i32⟩ : BufTy).Contents (Elt F)),
    ternary main_v59 main_v61 main_v18 main_v62 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v57 main_v63 (broadcastInDim S128x8192 ![0, 1] bcast_S128x1_S128x8192_0_1 : (⟨S128x1, .i32⟩ : BufTy).Contents (Elt F) → (⟨S128x8192, .i32⟩ : BufTy).Contents (Elt F)),
    unary main_v63 main_v64 (broadcastInDim S128x8192x1 ![0, 1] bcast_S128x8192_S128x8192x1_0_1 : (⟨S128x8192, .i32⟩ : BufTy).Contents (Elt F) → (⟨S128x8192x1, .i32⟩ : BufTy).Contents (Elt F)),
    unary main_v62 main_v65 (broadcastInDim S128x8192x1 ![0, 1] bcast_S128x8192_S128x8192x1_0_1 : (⟨S128x8192, .i32⟩ : BufTy).Contents (Elt F) → (⟨S128x8192x1, .i32⟩ : BufTy).Contents (Elt F)),
    binary main_v64 main_v65 main_v66 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v66 main_v67 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)),
    nullary main_cst_20 (constant S_ .f32 0x3F800000#32),
    unary main_cst_20 main_v68 (broadcastInDim S128x8192 ![] bcast_S_S128x8192 : (⟨S_, .f32⟩ : BufTy).Contents (Elt F) → (⟨S128x8192, .f32⟩ : BufTy).Contents (Elt F)),
    binary main_v68 main_v34 main_v69 (subf : (⟨S128x8192, .f32⟩ : BufTy).Contents (Elt F) → (⟨S128x8192, .f32⟩ : BufTy).Contents (Elt F) → (⟨S128x8192, .f32⟩ : BufTy).Contents (Elt F)),
    unary main_v69 main_v70 (broadcastInDim S128x8192x1 ![0, 1] bcast_S128x8192_S128x8192x1_0_1 : (⟨S128x8192, .f32⟩ : BufTy).Contents (Elt F) → (⟨S128x8192x1, .f32⟩ : BufTy).Contents (Elt F)),
    unary main_v70 main_v71 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v71 main_v52 main_v72 (mulf : (⟨S128x8192x128, .f32⟩ : BufTy).Contents (Elt F) → (⟨S128x8192x128, .f32⟩ : BufTy).Contents (Elt F) → (⟨S128x8192x128, .f32⟩ : BufTy).Contents (Elt F)),
    unary main_v34 main_v73 (broadcastInDim S128x8192x1 ![0, 1] bcast_S128x8192_S128x8192x1_0_1 : (⟨S128x8192, .f32⟩ : BufTy).Contents (Elt F) → (⟨S128x8192x1, .f32⟩ : BufTy).Contents (Elt F)),
    unary main_v73 main_v74 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v74 main_v67 main_v75 (mulf : (⟨S128x8192x128, .f32⟩ : BufTy).Contents (Elt F) → (⟨S128x8192x128, .f32⟩ : BufTy).Contents (Elt F) → (⟨S128x8192x128, .f32⟩ : BufTy).Contents (Elt F)),
    binary main_v72 main_v75 main_v76 (addf : (⟨S128x8192x128, .f32⟩ : BufTy).Contents (Elt F) → (⟨S128x8192x128, .f32⟩ : BufTy).Contents (Elt F) → (⟨S128x8192x128, .f32⟩ : BufTy).Contents (Elt F)),
    nullary main_cst_21 (constant S_ .f32 0x00000000#32),
    binary main_v76 main_cst_21 main_v77 ((fun x v => Host.reduceAdd x v reducesTo_S128x8192x128_S8192x128_d0 h_S_) : (⟨S128x8192x128, .f32⟩ : BufTy).Contents (Elt F) → (⟨S_, .f32⟩ : BufTy).Contents (Elt F) → (⟨S8192x128, .f32⟩ : BufTy).Contents (Elt F)),
    unary main_v77 main_v78 ((transpose S128x8192 [1, 0] · transposes_S8192x128_S128x8192_1_0) : (⟨S8192x128, .f32⟩ : BufTy).Contents (Elt F) → (⟨S128x8192, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub ..⟩
/-- No operation allocates: each determines its results. -/
theorem ops_fresh : (ops : List (HloOp τ sig (Elt F))).Forall fun op => op.fresh = ∅ := by
  simp only [List.Forall]; repeat' constructor

/-- Operations 1 … 12 of the line. -/
abbrev part0 : List (HloOp τ sig (Elt F)) :=
  [
    unary main_arg0 main_v0 (Host.absf : (⟨S128x8192, .f32⟩ : BufTy).Contents (Elt F) → (⟨S128x8192, .f32⟩ : BufTy).Contents (Elt F)),
    unary main_v0 main_v1 (Host.negf : (⟨S128x8192, .f32⟩ : BufTy).Contents (Elt F) → (⟨S128x8192, .f32⟩ : BufTy).Contents (Elt F)),
    unary main_v1 main_v2 (Host.exp : (⟨S128x8192, .f32⟩ : BufTy).Contents (Elt F) → (⟨S128x8192, .f32⟩ : BufTy).Contents (Elt F)),
    nullary main_cst (constant S_ .f32 0x00000000#32),
    unary main_cst main_v3 (broadcastInDim S128x8192 ![] bcast_S_S128x8192 : (⟨S_, .f32⟩ : BufTy).Contents (Elt F) → (⟨S128x8192, .f32⟩ : BufTy).Contents (Elt F)),
    binary main_arg0 main_v3 main_v4 (cmpf .ogt : (⟨S128x8192, .f32⟩ : BufTy).Contents (Elt F) → (⟨S128x8192, .f32⟩ : BufTy).Contents (Elt F) → (⟨S128x8192, .i1⟩ : BufTy).Contents (Elt F)),
    nullary main_cst_0 (constant S_ .f32 0x3F000000#32),
    unary main_cst_0 main_v5 (broadcastInDim S128x8192 ![] bcast_S_S128x8192 : (⟨S_, .f32⟩ : BufTy).Contents (Elt F) → (⟨S128x8192, .f32⟩ : BufTy).Contents (Elt F)),
    binary main_v5 main_v2 main_v6 (mulf : (⟨S128x8192, .f32⟩ : BufTy).Contents (Elt F) → (⟨S128x8192, .f32⟩ : BufTy).Contents (Elt F) → (⟨S128x8192, .f32⟩ : BufTy).Contents (Elt F)),
    nullary main_cst_1 (constant S_ .f32 0x3F800000#32),
    unary main_cst_1 main_v7 (broadcastInDim S128x8192 ![] bcast_S_S128x8192 : (⟨S_, .f32⟩ : BufTy).Contents (Elt F) → (⟨S128x8192, .f32⟩ : BufTy).Contents (Elt F)),
    binary main_v7 main_v6 main_v8 (subf : (⟨S128x8192, .f32⟩ : BufTy).Contents (Elt F) → (⟨S128x8192, .f32⟩ : BufTy).Contents (Elt F) → (⟨S128x8192, .f32⟩ : BufTy).Contents (Elt F)) ]
/-- Operations 13 … 24 of the line. -/
abbrev part1 : List (HloOp τ sig (Elt F)) :=
  [
    nullary main_cst_2 (constant S_ .f32 0x3F000000#32),
    unary main_cst_2 main_v9 (broadcastInDim S128x8192 ![] bcast_S_S128x8192 : (⟨S_, .f32⟩ : BufTy).Contents (Elt F) → (⟨S128x8192, .f32⟩ : BufTy).Contents (Elt F)),
    binary main_v9 main_v2 main_v10 (mulf : (⟨S128x8192, .f32⟩ : BufTy).Contents (Elt F) → (⟨S128x8192, .f32⟩ : BufTy).Contents (Elt F) → (⟨S128x8192, .f32⟩ : BufTy).Contents (Elt F)),
    TRef.ternary (TRef.of (T := ⟨S128x8192, .i1⟩) main_v4) (TRef.of (T := ⟨S128x8192, .f32⟩) main_v8) (TRef.of (T := ⟨S128x8192, .f32⟩) main_v10) (TRef.of (T := ⟨S128x8192, .f32⟩) main_v11) select,
    nullary main_cst_3 (constant S_ .f32 0x43000000#32),
    unary main_cst_3 main_v12 (broadcastInDim S128x8192 ![] bcast_S_S128x8192 : (⟨S_, .f32⟩ : BufTy).Contents (Elt F) → (⟨S128x8192, .f32⟩ : BufTy).Contents (Elt F)),
    binary main_v11 main_v12 main_v13 (mulf : (⟨S128x8192, .f32⟩ : BufTy).Contents (Elt F) → (⟨S128x8192, .f32⟩ : BufTy).Contents (Elt F) → (⟨S128x8192, .f32⟩ : BufTy).Contents (Elt F)),
    unary main_v13 main_v14 (fptosi 32 : (⟨S128x8192, .f32⟩ : BufTy).Contents (Elt F) → (⟨S128x8192, .i32⟩ : BufTy).Contents (Elt F)),
    nullary main_c (constantI S_ 32 0#32),
    nullary main_c_4 (constantI S_ 32 127#32),
    TRef.unary (TRef.of (T := ⟨S_, .i32⟩) main_c) (TRef.of (T := ⟨S_, .i32⟩) main_call1_v0) id,
    TRef.unary (TRef.of (T := ⟨S_, .i32⟩) main_call1_v0) (TRef.of (T := ⟨S128x8192, .i32⟩) main_call1_v1) (broadcastInDim S128x8192 ![] bcast_S_S128x8192) ]
/-- Operations 25 … 36 of the line. -/
abbrev part2 : List (HloOp τ sig (Elt F)) :=
  [
    TRef.binary (TRef.of (T := ⟨S128x8192, .i32⟩) main_call1_v1) (TRef.of (T := ⟨S128x8192, .i32⟩) main_v14) (TRef.of (T := ⟨S128x8192, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S128x8192, .i32⟩) main_call1_v4) (broadcastInDim S128x8192 ![] bcast_S_S128x8192),
    TRef.binary (TRef.of (T := ⟨S128x8192, .i32⟩) main_call1_v4) (TRef.of (T := ⟨S128x8192, .i32⟩) main_call1_v2) (TRef.of (T := ⟨S128x8192, .i32⟩) main_v15) minsi,
    nullary main_c_5 (constantI S_ 32 1#32),
    unary main_c_5 main_v16 (broadcastInDim S128x8192 ![] bcast_S_S128x8192 : (⟨S_, .i32⟩ : BufTy).Contents (Elt F) → (⟨S128x8192, .i32⟩ : BufTy).Contents (Elt F)),
    binary main_v15 main_v16 main_v17 (addi : (⟨S128x8192, .i32⟩ : BufTy).Contents (Elt F) → (⟨S128x8192, .i32⟩ : BufTy).Contents (Elt F) → (⟨S128x8192, .i32⟩ : BufTy).Contents (Elt F)),
    nullary main_c_6 (constantI S_ 32 0#32),
    nullary main_c_7 (constantI S_ 32 128#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S128x8192, .i32⟩) main_call2_v1) (broadcastInDim S128x8192 ![] bcast_S_S128x8192),
    TRef.binary (TRef.of (T := ⟨S128x8192, .i32⟩) main_call2_v1) (TRef.of (T := ⟨S128x8192, .i32⟩) main_v17) (TRef.of (T := ⟨S128x8192, .i32⟩) main_call2_v2) maxsi ]
/-- Operations 37 … 48 of the line. -/
abbrev part3 : List (HloOp τ sig (Elt F)) :=
  [
    TRef.unary (TRef.of (T := ⟨S_, .i32⟩) main_c_7) (TRef.of (T := ⟨S_, .i32⟩) main_call2_v3) id,
    TRef.unary (TRef.of (T := ⟨S_, .i32⟩) main_call2_v3) (TRef.of (T := ⟨S128x8192, .i32⟩) main_call2_v4) (broadcastInDim S128x8192 ![] bcast_S_S128x8192),
    TRef.binary (TRef.of (T := ⟨S128x8192, .i32⟩) main_call2_v4) (TRef.of (T := ⟨S128x8192, .i32⟩) main_call2_v2) (TRef.of (T := ⟨S128x8192, .i32⟩) main_v18) minsi,
    nullary main_c_8 (constantI S_ 32 0#32),
    unary main_c_8 main_v19 (broadcastInDim S128x8192 ![] bcast_S_S128x8192 : (⟨S_, .i32⟩ : BufTy).Contents (Elt F) → (⟨S128x8192, .i32⟩ : BufTy).Contents (Elt F)),
    binary main_v15 main_v19 main_v20 (cmpi .slt : (⟨S128x8192, .i32⟩ : BufTy).Contents (Elt F) → (⟨S128x8192, .i32⟩ : BufTy).Contents (Elt F) → (⟨S128x8192, .i1⟩ : BufTy).Contents (Elt F)),
    nullary main_c_9 (constantI S_ 32 129#32),
    unary main_c_9 main_v21 (broadcastInDim S128x8192 ![] bcast_S_S128x8192 : (⟨S_, .i32⟩ : BufTy).Contents (Elt F) → (⟨S128x8192, .i32⟩ : BufTy).Contents (Elt F)),
    binary main_v15 main_v21 main_v22 (addi : (⟨S128x8192, .i32⟩ : BufTy).Contents (Elt F) → (⟨S128x8192, .i32⟩ : BufTy).Contents (Elt F) → (⟨S128x8192, .i32⟩ : BufTy).Contents (Elt F)),
    ternary main_v20 main_v22 main_v15 main_v23 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v23 main_v24 (broadcastInDim S128x8192x1 ![0, 1] bcast_S128x8192_S128x8192x1_0_1 : (⟨S128x8192, .i32⟩ : BufTy).Contents (Elt F) → (⟨S128x8192x1, .i32⟩ : BufTy).Contents (Elt F)),
    binary main_arg2 main_v24 main_v25 ((fun x i => Host.gather gather_S129_S128x8192x1_S128x8192_n_0_n_n_0_2_1 x i) : (⟨S129, .f32⟩ : BufTy).Contents (Elt F) → (⟨S128x8192x1, .i32⟩ : BufTy).Contents (Elt F) → (⟨S128x8192, .f32⟩ : BufTy).Contents (Elt F)) ]
/-- Operations 49 … 60 of the line. -/
abbrev part4 : List (HloOp τ sig (Elt F)) :=
  [
    nullary main_c_10 (constantI S_ 32 0#32),
    unary main_c_10 main_v26 (broadcastInDim S128x8192 ![] bcast_S_S128x8192 : (⟨S_, .i32⟩ : BufTy).Contents (Elt F) → (⟨S128x8192, .i32⟩ : BufTy).Contents (Elt F)),
    binary main_v15 main_v26 main_v27 (cmpi .slt : (⟨S128x8192, .i32⟩ : BufTy).Contents (Elt F) → (⟨S128x8192, .i32⟩ : BufTy).Contents (Elt F) → (⟨S128x8192, .i1⟩ : BufTy).Contents (Elt F)),
    nullary main_c_11 (constantI S_ 32 128#32),
    unary main_c_11 main_v28 (broadcastInDim S128x8192 ![] bcast_S_S128x8192 : (⟨S_, .i32⟩ : BufTy).Contents (Elt F) → (⟨S128x8192, .i32⟩ : BufTy).Contents (Elt F)),
    binary main_v15 main_v28 main_v29 (addi : (⟨S128x8192, .i32⟩ : BufTy).Contents (Elt F) → (⟨S128x8192, .i32⟩ : BufTy).Contents (Elt F) → (⟨S128x8192, .i32⟩ : BufTy).Contents (Elt F)),
    ternary main_v27 main_v29 main_v15 main_v30 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v30 main_v31 (broadcastInDim S128x8192x1 ![0, 1] bcast_S128x8192_S128x8192x1_0_1 : (⟨S128x8192, .i32⟩ : BufTy).Contents (Elt F) → (⟨S128x8192x1, .i32⟩ : BufTy).Contents (Elt F)),
    binary main_arg3 main_v31 main_v32 ((fun x i => Host.gather gather_S128_S128x8192x1_S128x8192_n_0_n_n_0_2_1 x i) : (⟨S128, .f32⟩ : BufTy).Contents (Elt F) → (⟨S128x8192x1, .i32⟩ : BufTy).Contents (Elt F) → (⟨S128x8192, .f32⟩ : BufTy).Contents (Elt F)),
    binary main_arg0 main_v25 main_v33 (subf : (⟨S128x8192, .f32⟩ : BufTy).Contents (Elt F) → (⟨S128x8192, .f32⟩ : BufTy).Contents (Elt F) → (⟨S128x8192, .f32⟩ : BufTy).Contents (Elt F)),
    binary main_v33 main_v32 main_v34 (mulf : (⟨S128x8192, .f32⟩ : BufTy).Contents (Elt F) → (⟨S128x8192, .f32⟩ : BufTy).Contents (Elt F) → (⟨S128x8192, .f32⟩ : BufTy).Contents (Elt F)),
    unary main_arg1 main_v35 ((transpose S128x129x128 [2, 0, 1] · transposes_S129x128x128_S128x129x128_2_0_1) : (⟨S129x128x128, .f32⟩ : BufTy).Contents (Elt F) → (⟨S128x129x128, .f32⟩ : BufTy).Contents (Elt F)) ]
/-- Operations 61 … 72 of the line. -/
abbrev part5 : List (HloOp τ sig (Elt F)) :=
  [
    nullary main_v36 (iotaInDim S128 32 0),
    unary main_v36 main_v37 (broadcastInDim S128x1 ![0] bcast_S128_S128x1_0 : (⟨S128, .i32⟩ : BufTy).Contents (Elt F) → (⟨S128x1, .i32⟩ : BufTy).Contents (Elt F)),
    nullary main_c_12 (constantI S_ 32 0#32),
    unary main_c_12 main_v38 (broadcastInDim S128x1 ![] bcast_S_S128x1 : (⟨S_, .i32⟩ : BufTy).Contents (Elt F) → (⟨S128x1, .i32⟩ : BufTy).Contents (Elt F)),
    binary main_v37 main_v38 main_v39 (cmpi .slt : (⟨S128x1, .i32⟩ : BufTy).Contents (Elt F) → (⟨S128x1, .i32⟩ : BufTy).Contents (Elt F) → (⟨S128x1, .i1⟩ : BufTy).Contents (Elt F)),
    nullary main_c_13 (constantI S_ 32 128#32),
    unary main_c_13 main_v40 (broadcastInDim S128x1 ![] bcast_S_S128x1 : (⟨S_, .i32⟩ : BufTy).Contents (Elt F) → (⟨S128x1, .i32⟩ : BufTy).Contents (Elt F)),
    binary main_v37 main_v40 main_v41 (addi : (⟨S128x1, .i32⟩ : BufTy).Contents (Elt F) → (⟨S128x1, .i32⟩ : BufTy).Contents (Elt F) → (⟨S128x1, .i32⟩ : BufTy).Contents (Elt F)),
    ternary main_v39 main_v41 main_v37 main_v42 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_14 (constantI S_ 32 0#32),
    unary main_c_14 main_v43 (broadcastInDim S128x8192 ![] bcast_S_S128x8192 : (⟨S_, .i32⟩ : BufTy).Contents (Elt F) → (⟨S128x8192, .i32⟩ : BufTy).Contents (Elt F)),
    binary main_v15 main_v43 main_v44 (cmpi .slt : (⟨S128x8192, .i32⟩ : BufTy).Contents (Elt F) → (⟨S128x8192, .i32⟩ : BufTy).Contents (Elt F) → (⟨S128x8192, .i1⟩ : BufTy).Contents (Elt F)) ]
/-- Operations 73 … 79 of the line. -/
abbrev part6 : List (HloOp τ sig (Elt F)) :=
  [
    nullary main_c_15 (constantI S_ 32 129#32),
    unary main_c_15 main_v45 (broadcastInDim S128x8192 ![] bcast_S_S128x8192 : (⟨S_, .i32⟩ : BufTy).Contents (Elt F) → (⟨S128x8192, .i32⟩ : BufTy).Contents (Elt F)),
    binary main_v15 main_v45 main_v46 (addi : (⟨S128x8192, .i32⟩ : BufTy).Contents (Elt F) → (⟨S128x8192, .i32⟩ : BufTy).Contents (Elt F) → (⟨S128x8192, .i32⟩ : BufTy).Contents (Elt F)),
    ternary main_v44 main_v46 main_v15 main_v47 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v42 main_v48 (broadcastInDim S128x8192 ![0, 1] bcast_S128x1_S128x8192_0_1 : (⟨S128x1, .i32⟩ : BufTy).Contents (Elt F) → (⟨S128x8192, .i32⟩ : BufTy).Contents (Elt F)),
    unary main_v48 main_v49 (broadcastInDim S128x8192x1 ![0, 1] bcast_S128x8192_S128x8192x1_0_1 : (⟨S128x8192, .i32⟩ : BufTy).Contents (Elt F) → (⟨S128x8192x1, .i32⟩ : BufTy).Contents (Elt F)),
    unary main_v47 main_v50 (broadcastInDim S128x8192x1 ![0, 1] bcast_S128x8192_S128x8192x1_0_1 : (⟨S128x8192, .i32⟩ : BufTy).Contents (Elt F) → (⟨S128x8192x1, .i32⟩ : BufTy).Contents (Elt F)) ]
/-- Operations 80 … 91 of the line. -/
abbrev part7 : List (HloOp τ sig (Elt F)) :=
  [
    binary main_v49 main_v50 main_v51 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v51 main_v52 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)),
    nullary main_c_16 (constantI S_ 32 0#32),
    unary main_c_16 main_v53 (broadcastInDim S128x1 ![] bcast_S_S128x1 : (⟨S_, .i32⟩ : BufTy).Contents (Elt F) → (⟨S128x1, .i32⟩ : BufTy).Contents (Elt F)),
    binary main_v37 main_v53 main_v54 (cmpi .slt : (⟨S128x1, .i32⟩ : BufTy).Contents (Elt F) → (⟨S128x1, .i32⟩ : BufTy).Contents (Elt F) → (⟨S128x1, .i1⟩ : BufTy).Contents (Elt F)),
    nullary main_c_17 (constantI S_ 32 128#32),
    unary main_c_17 main_v55 (broadcastInDim S128x1 ![] bcast_S_S128x1 : (⟨S_, .i32⟩ : BufTy).Contents (Elt F) → (⟨S128x1, .i32⟩ : BufTy).Contents (Elt F)),
    binary main_v37 main_v55 main_v56 (addi : (⟨S128x1, .i32⟩ : BufTy).Contents (Elt F) → (⟨S128x1, .i32⟩ : BufTy).Contents (Elt F) → (⟨S128x1, .i32⟩ : BufTy).Contents (Elt F)),
    ternary main_v54 main_v56 main_v37 main_v57 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_18 (constantI S_ 32 0#32),
    unary main_c_18 main_v58 (broadcastInDim S128x8192 ![] bcast_S_S128x8192 : (⟨S_, .i32⟩ : BufTy).Contents (Elt F) → (⟨S128x8192, .i32⟩ : BufTy).Contents (Elt F)),
    binary main_v18 main_v58 main_v59 (cmpi .slt : (⟨S128x8192, .i32⟩ : BufTy).Contents (Elt F) → (⟨S128x8192, .i32⟩ : BufTy).Contents (Elt F) → (⟨S128x8192, .i1⟩ : BufTy).Contents (Elt F)) ]
/-- Operations 92 … 98 of the line. -/
abbrev part8 : List (HloOp τ sig (Elt F)) :=
  [
    nullary main_c_19 (constantI S_ 32 129#32),
    unary main_c_19 main_v60 (broadcastInDim S128x8192 ![] bcast_S_S128x8192 : (⟨S_, .i32⟩ : BufTy).Contents (Elt F) → (⟨S128x8192, .i32⟩ : BufTy).Contents (Elt F)),
    binary main_v18 main_v60 main_v61 (addi : (⟨S128x8192, .i32⟩ : BufTy).Contents (Elt F) → (⟨S128x8192, .i32⟩ : BufTy).Contents (Elt F) → (⟨S128x8192, .i32⟩ : BufTy).Contents (Elt F)),
    ternary main_v59 main_v61 main_v18 main_v62 (select : (⟨S128x8192, .i1⟩ : BufTy).Contents (Elt F) → (⟨S128x8192, .i32⟩ : BufTy).Contents (Elt F) → (⟨S128x8192, .i32⟩ : BufTy).Contents (Elt F) → (⟨S128x8192, .i32⟩ : BufTy).Contents (Elt F)),
    unary main_v57 main_v63 (broadcastInDim S128x8192 ![0, 1] bcast_S128x1_S128x8192_0_1 : (⟨S128x1, .i32⟩ : BufTy).Contents (Elt F) → (⟨S128x8192, .i32⟩ : BufTy).Contents (Elt F)),
    unary main_v63 main_v64 (broadcastInDim S128x8192x1 ![0, 1] bcast_S128x8192_S128x8192x1_0_1 : (⟨S128x8192, .i32⟩ : BufTy).Contents (Elt F) → (⟨S128x8192x1, .i32⟩ : BufTy).Contents (Elt F)),
    unary main_v62 main_v65 (broadcastInDim S128x8192x1 ![0, 1] bcast_S128x8192_S128x8192x1_0_1 : (⟨S128x8192, .i32⟩ : BufTy).Contents (Elt F) → (⟨S128x8192x1, .i32⟩ : BufTy).Contents (Elt F)) ]
/-- Operations 99 … 110 of the line. -/
abbrev part9 : List (HloOp τ sig (Elt F)) :=
  [
    binary main_v64 main_v65 main_v66 ((fun a b => concatenate S128x8192x2 2 [⟨S128x8192x1, a⟩, ⟨S128x8192x1, b⟩] concatenates_S128x8192x1_S128x8192x1_S128x8192x2_d2) : (⟨S128x8192x1, .i32⟩ : BufTy).Contents (Elt F) → (⟨S128x8192x1, .i32⟩ : BufTy).Contents (Elt F) → (⟨S128x8192x2, .i32⟩ : BufTy).Contents (Elt F)),
    binary main_v35 main_v66 main_v67 ((fun x i => Host.gather gather_S128x129x128_S128x8192x2_S128x8192x128_2_01_n_n_01_2_11128 x i) : (⟨S128x129x128, .f32⟩ : BufTy).Contents (Elt F) → (⟨S128x8192x2, .i32⟩ : BufTy).Contents (Elt F) → (⟨S128x8192x128, .f32⟩ : BufTy).Contents (Elt F)),
    nullary main_cst_20 (constant S_ .f32 0x3F800000#32),
    unary main_cst_20 main_v68 (broadcastInDim S128x8192 ![] bcast_S_S128x8192 : (⟨S_, .f32⟩ : BufTy).Contents (Elt F) → (⟨S128x8192, .f32⟩ : BufTy).Contents (Elt F)),
    binary main_v68 main_v34 main_v69 (subf : (⟨S128x8192, .f32⟩ : BufTy).Contents (Elt F) → (⟨S128x8192, .f32⟩ : BufTy).Contents (Elt F) → (⟨S128x8192, .f32⟩ : BufTy).Contents (Elt F)),
    unary main_v69 main_v70 (broadcastInDim S128x8192x1 ![0, 1] bcast_S128x8192_S128x8192x1_0_1 : (⟨S128x8192, .f32⟩ : BufTy).Contents (Elt F) → (⟨S128x8192x1, .f32⟩ : BufTy).Contents (Elt F)),
    unary main_v70 main_v71 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v71 main_v52 main_v72 (mulf : (⟨S128x8192x128, .f32⟩ : BufTy).Contents (Elt F) → (⟨S128x8192x128, .f32⟩ : BufTy).Contents (Elt F) → (⟨S128x8192x128, .f32⟩ : BufTy).Contents (Elt F)),
    unary main_v34 main_v73 (broadcastInDim S128x8192x1 ![0, 1] bcast_S128x8192_S128x8192x1_0_1 : (⟨S128x8192, .f32⟩ : BufTy).Contents (Elt F) → (⟨S128x8192x1, .f32⟩ : BufTy).Contents (Elt F)),
    unary main_v73 main_v74 (broadcastInDim S128x8192x128 ![0, 1, 2] bcast_S128x8192x1_S128x8192x128_0_1_2 : (⟨S128x8192x1, .f32⟩ : BufTy).Contents (Elt F) → (⟨S128x8192x128, .f32⟩ : BufTy).Contents (Elt F)),
    binary main_v74 main_v67 main_v75 (mulf : (⟨S128x8192x128, .f32⟩ : BufTy).Contents (Elt F) → (⟨S128x8192x128, .f32⟩ : BufTy).Contents (Elt F) → (⟨S128x8192x128, .f32⟩ : BufTy).Contents (Elt F)),
    binary main_v72 main_v75 main_v76 (addf : (⟨S128x8192x128, .f32⟩ : BufTy).Contents (Elt F) → (⟨S128x8192x128, .f32⟩ : BufTy).Contents (Elt F) → (⟨S128x8192x128, .f32⟩ : BufTy).Contents (Elt F)) ]
/-- Operations 111 … 113 of the line. -/
abbrev part10 : List (HloOp τ sig (Elt F)) :=
  [
    nullary main_cst_21 (constant S_ .f32 0x00000000#32),
    binary main_v76 main_cst_21 main_v77 ((fun x v => Host.reduceAdd x v reducesTo_S128x8192x128_S8192x128_d0 h_S_) : (⟨S128x8192x128, .f32⟩ : BufTy).Contents (Elt F) → (⟨S_, .f32⟩ : BufTy).Contents (Elt F) → (⟨S8192x128, .f32⟩ : BufTy).Contents (Elt F)),
    unary main_v77 main_v78 ((transpose S128x8192 [1, 0] · transposes_S8192x128_S128x8192_1_0) : (⟨S8192x128, .f32⟩ : BufTy).Contents (Elt F) → (⟨S128x8192, .f32⟩ : BufTy).Contents (Elt F)) ]

set_option maxRecDepth 8192 in
/-- The line is its stretches, one after the other. -/
theorem ops_cut : (ops : List (HloOp τ sig (Elt F))) = part0 ++ (part1 ++ (part2 ++ (part3 ++ (part4 ++ (part5 ++ (part6 ++ (part7 ++ (part8 ++ (part9 ++ (part10)))))))))) := rfl

set_option maxHeartbeats 4000000 in
/-- Stretch 0: the buffers later stretches read, after it, from their values before it. -/
theorem stretch0 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3) :
    after (part0 (F := F)) V (Proc.devRef .tc main_arg0) = x0
    ∧ after (part0 (F := F)) V (Proc.devRef .tc main_arg1) = x1
    ∧ after (part0 (F := F)) V (Proc.devRef .tc main_arg2) = x2
    ∧ after (part0 (F := F)) V (Proc.devRef .tc main_arg3) = x3
    ∧ after (part0 (F := F)) V (Proc.devRef .tc main_v2) = val_main_v2 (F := F) x0
    ∧ after (part0 (F := F)) V (Proc.devRef .tc main_v4) = val_main_v4 (F := F) x0
    ∧ after (part0 (F := F)) V (Proc.devRef .tc main_v8) = val_main_v8 (F := F) x0 := by
  refine ⟨?_, ?_, ?_, ?_, ?_, ?_, ?_⟩
  · exact (after_of_forall_not_mem (b := Proc.devRef .tc main_arg0) _ V (List.forall_iff_forall_mem.mp (by
      simp only [part0, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part0, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part0, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part0, List.Forall, nullary_writes, unary_writes, binary_writes, ternary_writes, Finset.mem_singleton]
      repeat' apply And.intro
      all_goals exact devRef_ne_of_ne (by decide)))).trans ha3
  · unfold part0
    after_results
    (try simp only [TRef.ofBuf, TRef.toBuf, cast_eq])
    (try simp only [ha0, ha1, ha2, ha3])
    (try rw [ha0])
    (try rw [ha1])
    (try rw [ha2])
    (try rw [ha3])
    (try rfl)
  · unfold part0
    after_results
    (try simp only [TRef.ofBuf, TRef.toBuf, cast_eq])
    (try simp only [ha0, ha1, ha2, ha3])
    (try rw [ha0])
    (try rw [ha1])
    (try rw [ha2])
    (try rw [ha3])
    (try rfl)
  · unfold part0
    after_results
    (try simp only [TRef.ofBuf, TRef.toBuf, cast_eq])
    (try simp only [ha0, ha1, ha2, ha3])
    (try rw [ha0])
    (try rw [ha1])
    (try rw [ha2])
    (try rw [ha3])
    (try rfl)

set_option maxHeartbeats 4000000 in
/-- Stretch 1: the buffers later stretches read, after it, from their values before it. -/
theorem stretch1 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v2 : V (Proc.devRef .tc main_v2) = val_main_v2 (F := F) x0)
    (h_v4 : V (Proc.devRef .tc main_v4) = val_main_v4 (F := F) x0)
    (h_v8 : V (Proc.devRef .tc main_v8) = val_main_v8 (F := F) x0) :
    after (part1 (F := F)) V (Proc.devRef .tc main_arg0) = x0
    ∧ after (part1 (F := F)) V (Proc.devRef .tc main_arg1) = x1
    ∧ after (part1 (F := F)) V (Proc.devRef .tc main_arg2) = x2
    ∧ after (part1 (F := F)) V (Proc.devRef .tc main_arg3) = x3
    ∧ after (part1 (F := F)) V (Proc.devRef .tc main_v14) = val_main_v14 (F := F) x0
    ∧ after (part1 (F := F)) V (Proc.devRef .tc main_c_4) = val_main_c_4 (F := F)
    ∧ after (part1 (F := F)) V (Proc.devRef .tc main_call1_v1) = val_main_call1_v1 (F := F) := by
  refine ⟨?_, ?_, ?_, ?_, ?_, ?_, ?_⟩
  · exact (after_of_forall_not_mem (b := Proc.devRef .tc main_arg0) _ V (List.forall_iff_forall_mem.mp (by
      simp only [part1, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part1, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part1, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part1, List.Forall, nullary_writes, unary_writes, binary_writes, ternary_writes, Finset.mem_singleton]
      repeat' apply And.intro
      all_goals exact devRef_ne_of_ne (by decide)))).trans ha3
  · unfold part1
    after_results
    (try simp only [TRef.ofBuf, TRef.toBuf, cast_eq])
    (try simp only [ha0, ha1, ha2, ha3, h_v2, h_v4, h_v8])
    (try rw [ha0])
    (try rw [ha1])
    (try rw [ha2])
    (try rw [ha3])
    (try rw [h_v2])
    (try rw [h_v4])
    (try rw [h_v8])
    (try rfl)
  · unfold part1
    after_results
    (try simp only [TRef.ofBuf, TRef.toBuf, cast_eq])
    (try simp only [ha0, ha1, ha2, ha3, h_v2, h_v4, h_v8])
    (try rw [ha0])
    (try rw [ha1])
    (try rw [ha2])
    (try rw [ha3])
    (try rw [h_v2])
    (try rw [h_v4])
    (try rw [h_v8])
    (try rfl)
  · unfold part1
    after_results
    (try simp only [TRef.ofBuf, TRef.toBuf, cast_eq])
    (try simp only [ha0, ha1, ha2, ha3, h_v2, h_v4, h_v8])
    (try rw [ha0])
    (try rw [ha1])
    (try rw [ha2])
    (try rw [ha3])
    (try rw [h_v2])
    (try rw [h_v4])
    (try rw [h_v8])
    (try rfl)

set_option maxHeartbeats 4000000 in
/-- Stretch 2: the buffers later stretches read, after it, from their values before it. -/
theorem stretch2 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v14 : V (Proc.devRef .tc main_v14) = val_main_v14 (F := F) x0)
    (h_c_4 : V (Proc.devRef .tc main_c_4) = val_main_c_4 (F := F))
    (h_call1_v1 : V (Proc.devRef .tc main_call1_v1) = val_main_call1_v1 (F := F)) :
    after (part2 (F := F)) V (Proc.devRef .tc main_arg0) = x0
    ∧ after (part2 (F := F)) V (Proc.devRef .tc main_arg1) = x1
    ∧ after (part2 (F := F)) V (Proc.devRef .tc main_arg2) = x2
    ∧ after (part2 (F := F)) V (Proc.devRef .tc main_arg3) = x3
    ∧ after (part2 (F := F)) V (Proc.devRef .tc main_v15) = val_main_v15 (F := F) x0
    ∧ after (part2 (F := F)) V (Proc.devRef .tc main_c_7) = val_main_c_7 (F := F)
    ∧ after (part2 (F := F)) V (Proc.devRef .tc main_call2_v2) = val_main_call2_v2 (F := F) x0 := by
  refine ⟨?_, ?_, ?_, ?_, ?_, ?_, ?_⟩
  · exact (after_of_forall_not_mem (b := Proc.devRef .tc main_arg0) _ V (List.forall_iff_forall_mem.mp (by
      simp only [part2, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part2, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part2, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part2, List.Forall, nullary_writes, unary_writes, binary_writes, ternary_writes, Finset.mem_singleton]
      repeat' apply And.intro
      all_goals exact devRef_ne_of_ne (by decide)))).trans ha3
  · unfold part2
    after_results
    (try simp only [TRef.ofBuf, TRef.toBuf, cast_eq])
    (try simp only [ha0, ha1, ha2, ha3, h_v14, h_c_4, h_call1_v1])
    (try rw [ha0])
    (try rw [ha1])
    (try rw [ha2])
    (try rw [ha3])
    (try rw [h_v14])
    (try rw [h_c_4])
    (try rw [h_call1_v1])
    (try rfl)
  · unfold part2
    after_results
    (try simp only [TRef.ofBuf, TRef.toBuf, cast_eq])
    (try simp only [ha0, ha1, ha2, ha3, h_v14, h_c_4, h_call1_v1])
    (try rw [ha0])
    (try rw [ha1])
    (try rw [ha2])
    (try rw [ha3])
    (try rw [h_v14])
    (try rw [h_c_4])
    (try rw [h_call1_v1])
    (try rfl)
  · unfold part2
    after_results
    (try simp only [TRef.ofBuf, TRef.toBuf, cast_eq])
    (try simp only [ha0, ha1, ha2, ha3, h_v14, h_c_4, h_call1_v1])
    (try rw [ha0])
    (try rw [ha1])
    (try rw [ha2])
    (try rw [ha3])
    (try rw [h_v14])
    (try rw [h_c_4])
    (try rw [h_call1_v1])
    (try rfl)

set_option maxHeartbeats 4000000 in
/-- Stretch 3: the buffers later stretches read, after it, from their values before it. -/
theorem stretch3 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v15 : V (Proc.devRef .tc main_v15) = val_main_v15 (F := F) x0)
    (h_c_7 : V (Proc.devRef .tc main_c_7) = val_main_c_7 (F := F))
    (h_call2_v2 : V (Proc.devRef .tc main_call2_v2) = val_main_call2_v2 (F := F) x0) :
    after (part3 (F := F)) V (Proc.devRef .tc main_arg0) = x0
    ∧ after (part3 (F := F)) V (Proc.devRef .tc main_arg1) = x1
    ∧ after (part3 (F := F)) V (Proc.devRef .tc main_arg2) = x2
    ∧ after (part3 (F := F)) V (Proc.devRef .tc main_arg3) = x3
    ∧ after (part3 (F := F)) V (Proc.devRef .tc main_v15) = val_main_v15 (F := F) x0
    ∧ after (part3 (F := F)) V (Proc.devRef .tc main_v18) = val_main_v18 (F := F) x0
    ∧ after (part3 (F := F)) V (Proc.devRef .tc main_v25) = val_main_v25 (F := F) x0 x2 := by
  refine ⟨?_, ?_, ?_, ?_, ?_, ?_, ?_⟩
  · exact (after_of_forall_not_mem (b := Proc.devRef .tc main_arg0) _ V (List.forall_iff_forall_mem.mp (by
      simp only [part3, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part3, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part3, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part3, List.Forall, nullary_writes, unary_writes, binary_writes, ternary_writes, Finset.mem_singleton]
      repeat' apply And.intro
      all_goals exact devRef_ne_of_ne (by decide)))).trans ha3
  · exact (after_of_forall_not_mem (b := Proc.devRef .tc main_v15) _ V (List.forall_iff_forall_mem.mp (by
      simp only [part3, List.Forall, nullary_writes, unary_writes, binary_writes, ternary_writes, Finset.mem_singleton]
      repeat' apply And.intro
      all_goals exact devRef_ne_of_ne (by decide)))).trans h_v15
  · unfold part3
    after_results
    (try simp only [TRef.ofBuf, TRef.toBuf, cast_eq])
    (try simp only [ha0, ha1, ha2, ha3, h_v15, h_c_7, h_call2_v2])
    (try rw [ha0])
    (try rw [ha1])
    (try rw [ha2])
    (try rw [ha3])
    (try rw [h_v15])
    (try rw [h_c_7])
    (try rw [h_call2_v2])
    (try rfl)
  · unfold part3
    after_results
    (try simp only [TRef.ofBuf, TRef.toBuf, cast_eq])
    (try simp only [ha0, ha1, ha2, ha3, h_v15, h_c_7, h_call2_v2])
    (try rw [ha0])
    (try rw [ha1])
    (try rw [ha2])
    (try rw [ha3])
    (try rw [h_v15])
    (try rw [h_c_7])
    (try rw [h_call2_v2])
    (try rfl)

set_option maxHeartbeats 4000000 in
/-- Stretch 4: the buffers later stretches read, after it, from their values before it. -/
theorem stretch4 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v15 : V (Proc.devRef .tc main_v15) = val_main_v15 (F := F) x0)
    (h_v18 : V (Proc.devRef .tc main_v18) = val_main_v18 (F := F) x0)
    (h_v25 : V (Proc.devRef .tc main_v25) = val_main_v25 (F := F) x0 x2) :
    after (part4 (F := F)) V (Proc.devRef .tc main_arg0) = x0
    ∧ after (part4 (F := F)) V (Proc.devRef .tc main_arg1) = x1
    ∧ after (part4 (F := F)) V (Proc.devRef .tc main_arg2) = x2
    ∧ after (part4 (F := F)) V (Proc.devRef .tc main_arg3) = x3
    ∧ after (part4 (F := F)) V (Proc.devRef .tc main_v15) = val_main_v15 (F := F) x0
    ∧ after (part4 (F := F)) V (Proc.devRef .tc main_v18) = val_main_v18 (F := F) x0
    ∧ after (part4 (F := F)) V (Proc.devRef .tc main_v34) = val_main_v34 (F := F) x0 x2 x3
    ∧ after (part4 (F := F)) V (Proc.devRef .tc main_v35) = val_main_v35 (F := F) x1 := by
  refine ⟨?_, ?_, ?_, ?_, ?_, ?_, ?_, ?_⟩
  · exact (after_of_forall_not_mem (b := Proc.devRef .tc main_arg0) _ V (List.forall_iff_forall_mem.mp (by
      simp only [part4, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part4, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part4, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part4, List.Forall, nullary_writes, unary_writes, binary_writes, ternary_writes, Finset.mem_singleton]
      repeat' apply And.intro
      all_goals exact devRef_ne_of_ne (by decide)))).trans ha3
  · exact (after_of_forall_not_mem (b := Proc.devRef .tc main_v15) _ V (List.forall_iff_forall_mem.mp (by
      simp only [part4, List.Forall, nullary_writes, unary_writes, binary_writes, ternary_writes, Finset.mem_singleton]
      repeat' apply And.intro
      all_goals exact devRef_ne_of_ne (by decide)))).trans h_v15
  · exact (after_of_forall_not_mem (b := Proc.devRef .tc main_v18) _ V (List.forall_iff_forall_mem.mp (by
      simp only [part4, List.Forall, nullary_writes, unary_writes, binary_writes, ternary_writes, Finset.mem_singleton]
      repeat' apply And.intro
      all_goals exact devRef_ne_of_ne (by decide)))).trans h_v18
  · unfold part4
    after_results
    (try simp only [TRef.ofBuf, TRef.toBuf, cast_eq])
    (try simp only [ha0, ha1, ha2, ha3, h_v15, h_v18, h_v25])
    (try rw [ha0])
    (try rw [ha1])
    (try rw [ha2])
    (try rw [ha3])
    (try rw [h_v15])
    (try rw [h_v18])
    (try rw [h_v25])
    (try rfl)
  · unfold part4
    after_results
    (try simp only [TRef.ofBuf, TRef.toBuf, cast_eq])
    (try simp only [ha0, ha1, ha2, ha3, h_v15, h_v18, h_v25])
    (try rw [ha0])
    (try rw [ha1])
    (try rw [ha2])
    (try rw [ha3])
    (try rw [h_v15])
    (try rw [h_v18])
    (try rw [h_v25])
    (try rfl)

set_option maxHeartbeats 4000000 in
/-- Stretch 5: the buffers later stretches read, after it, from their values before it. -/
theorem stretch5 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v15 : V (Proc.devRef .tc main_v15) = val_main_v15 (F := F) x0)
    (h_v18 : V (Proc.devRef .tc main_v18) = val_main_v18 (F := F) x0)
    (h_v34 : V (Proc.devRef .tc main_v34) = val_main_v34 (F := F) x0 x2 x3)
    (h_v35 : V (Proc.devRef .tc main_v35) = val_main_v35 (F := F) x1) :
    after (part5 (F := F)) V (Proc.devRef .tc main_arg0) = x0
    ∧ after (part5 (F := F)) V (Proc.devRef .tc main_arg1) = x1
    ∧ after (part5 (F := F)) V (Proc.devRef .tc main_arg2) = x2
    ∧ after (part5 (F := F)) V (Proc.devRef .tc main_arg3) = x3
    ∧ after (part5 (F := F)) V (Proc.devRef .tc main_v15) = val_main_v15 (F := F) x0
    ∧ after (part5 (F := F)) V (Proc.devRef .tc main_v18) = val_main_v18 (F := F) x0
    ∧ after (part5 (F := F)) V (Proc.devRef .tc main_v34) = val_main_v34 (F := F) x0 x2 x3
    ∧ after (part5 (F := F)) V (Proc.devRef .tc main_v35) = val_main_v35 (F := F) x1
    ∧ after (part5 (F := F)) V (Proc.devRef .tc main_v37) = val_main_v37 (F := F)
    ∧ after (part5 (F := F)) V (Proc.devRef .tc main_v42) = val_main_v42 (F := F)
    ∧ after (part5 (F := F)) V (Proc.devRef .tc main_v44) = val_main_v44 (F := F) x0 := by
  refine ⟨?_, ?_, ?_, ?_, ?_, ?_, ?_, ?_, ?_, ?_, ?_⟩
  · exact (after_of_forall_not_mem (b := Proc.devRef .tc main_arg0) _ V (List.forall_iff_forall_mem.mp (by
      simp only [part5, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part5, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part5, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part5, List.Forall, nullary_writes, unary_writes, binary_writes, ternary_writes, Finset.mem_singleton]
      repeat' apply And.intro
      all_goals exact devRef_ne_of_ne (by decide)))).trans ha3
  · exact (after_of_forall_not_mem (b := Proc.devRef .tc main_v15) _ V (List.forall_iff_forall_mem.mp (by
      simp only [part5, List.Forall, nullary_writes, unary_writes, binary_writes, ternary_writes, Finset.mem_singleton]
      repeat' apply And.intro
      all_goals exact devRef_ne_of_ne (by decide)))).trans h_v15
  · exact (after_of_forall_not_mem (b := Proc.devRef .tc main_v18) _ V (List.forall_iff_forall_mem.mp (by
      simp only [part5, List.Forall, nullary_writes, unary_writes, binary_writes, ternary_writes, Finset.mem_singleton]
      repeat' apply And.intro
      all_goals exact devRef_ne_of_ne (by decide)))).trans h_v18
  · exact (after_of_forall_not_mem (b := Proc.devRef .tc main_v34) _ V (List.forall_iff_forall_mem.mp (by
      simp only [part5, List.Forall, nullary_writes, unary_writes, binary_writes, ternary_writes, Finset.mem_singleton]
      repeat' apply And.intro
      all_goals exact devRef_ne_of_ne (by decide)))).trans h_v34
  · exact (after_of_forall_not_mem (b := Proc.devRef .tc main_v35) _ V (List.forall_iff_forall_mem.mp (by
      simp only [part5, List.Forall, nullary_writes, unary_writes, binary_writes, ternary_writes, Finset.mem_singleton]
      repeat' apply And.intro
      all_goals exact devRef_ne_of_ne (by decide)))).trans h_v35
  · unfold part5
    after_results
    (try simp only [TRef.ofBuf, TRef.toBuf, cast_eq])
    (try simp only [ha0, ha1, ha2, ha3, h_v15, h_v18, h_v34, h_v35])
    (try rw [ha0])
    (try rw [ha1])
    (try rw [ha2])
    (try rw [ha3])
    (try rw [h_v15])
    (try rw [h_v18])
    (try rw [h_v34])
    (try rw [h_v35])
    (try rfl)
  · unfold part5
    after_results
    (try simp only [TRef.ofBuf, TRef.toBuf, cast_eq])
    (try simp only [ha0, ha1, ha2, ha3, h_v15, h_v18, h_v34, h_v35])
    (try rw [ha0])
    (try rw [ha1])
    (try rw [ha2])
    (try rw [ha3])
    (try rw [h_v15])
    (try rw [h_v18])
    (try rw [h_v34])
    (try rw [h_v35])
    (try rfl)
  · unfold part5
    after_results
    (try simp only [TRef.ofBuf, TRef.toBuf, cast_eq])
    (try simp only [ha0, ha1, ha2, ha3, h_v15, h_v18, h_v34, h_v35])
    (try rw [ha0])
    (try rw [ha1])
    (try rw [ha2])
    (try rw [ha3])
    (try rw [h_v15])
    (try rw [h_v18])
    (try rw [h_v34])
    (try rw [h_v35])
    (try rfl)

set_option maxHeartbeats 4000000 in
/-- Stretch 6: the buffers later stretches read, after it, from their values before it. -/
theorem stretch6 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v15 : V (Proc.devRef .tc main_v15) = val_main_v15 (F := F) x0)
    (h_v18 : V (Proc.devRef .tc main_v18) = val_main_v18 (F := F) x0)
    (h_v34 : V (Proc.devRef .tc main_v34) = val_main_v34 (F := F) x0 x2 x3)
    (h_v35 : V (Proc.devRef .tc main_v35) = val_main_v35 (F := F) x1)
    (h_v37 : V (Proc.devRef .tc main_v37) = val_main_v37 (F := F))
    (h_v42 : V (Proc.devRef .tc main_v42) = val_main_v42 (F := F))
    (h_v44 : V (Proc.devRef .tc main_v44) = val_main_v44 (F := F) x0) :
    after (part6 (F := F)) V (Proc.devRef .tc main_arg0) = x0
    ∧ after (part6 (F := F)) V (Proc.devRef .tc main_arg1) = x1
    ∧ after (part6 (F := F)) V (Proc.devRef .tc main_arg2) = x2
    ∧ after (part6 (F := F)) V (Proc.devRef .tc main_arg3) = x3
    ∧ after (part6 (F := F)) V (Proc.devRef .tc main_v18) = val_main_v18 (F := F) x0
    ∧ after (part6 (F := F)) V (Proc.devRef .tc main_v34) = val_main_v34 (F := F) x0 x2 x3
    ∧ after (part6 (F := F)) V (Proc.devRef .tc main_v35) = val_main_v35 (F := F) x1
    ∧ after (part6 (F := F)) V (Proc.devRef .tc main_v37) = val_main_v37 (F := F)
    ∧ after (part6 (F := F)) V (Proc.devRef .tc main_v49) = val_main_v49 (F := F)
    ∧ after (part6 (F := F)) V (Proc.devRef .tc main_v50) = val_main_v50 (F := F) x0 := by
  refine ⟨?_, ?_, ?_, ?_, ?_, ?_, ?_, ?_, ?_, ?_⟩
  · exact (after_of_forall_not_mem (b := Proc.devRef .tc main_arg0) _ V (List.forall_iff_forall_mem.mp (by
      simp only [part6, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part6, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part6, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part6, List.Forall, nullary_writes, unary_writes, binary_writes, ternary_writes, Finset.mem_singleton]
      repeat' apply And.intro
      all_goals exact devRef_ne_of_ne (by decide)))).trans ha3
  · exact (after_of_forall_not_mem (b := Proc.devRef .tc main_v18) _ V (List.forall_iff_forall_mem.mp (by
      simp only [part6, List.Forall, nullary_writes, unary_writes, binary_writes, ternary_writes, Finset.mem_singleton]
      repeat' apply And.intro
      all_goals exact devRef_ne_of_ne (by decide)))).trans h_v18
  · exact (after_of_forall_not_mem (b := Proc.devRef .tc main_v34) _ V (List.forall_iff_forall_mem.mp (by
      simp only [part6, List.Forall, nullary_writes, unary_writes, binary_writes, ternary_writes, Finset.mem_singleton]
      repeat' apply And.intro
      all_goals exact devRef_ne_of_ne (by decide)))).trans h_v34
  · exact (after_of_forall_not_mem (b := Proc.devRef .tc main_v35) _ V (List.forall_iff_forall_mem.mp (by
      simp only [part6, List.Forall, nullary_writes, unary_writes, binary_writes, ternary_writes, Finset.mem_singleton]
      repeat' apply And.intro
      all_goals exact devRef_ne_of_ne (by decide)))).trans h_v35
  · exact (after_of_forall_not_mem (b := Proc.devRef .tc main_v37) _ V (List.forall_iff_forall_mem.mp (by
      simp only [part6, List.Forall, nullary_writes, unary_writes, binary_writes, ternary_writes, Finset.mem_singleton]
      repeat' apply And.intro
      all_goals exact devRef_ne_of_ne (by decide)))).trans h_v37
  · unfold part6
    after_results
    (try simp only [TRef.ofBuf, TRef.toBuf, cast_eq])
    (try simp only [ha0, ha1, ha2, ha3, h_v15, h_v18, h_v34, h_v35, h_v37, h_v42, h_v44])
    (try rw [ha0])
    (try rw [ha1])
    (try rw [ha2])
    (try rw [ha3])
    (try rw [h_v15])
    (try rw [h_v18])
    (try rw [h_v34])
    (try rw [h_v35])
    (try rw [h_v37])
    (try rw [h_v42])
    (try rw [h_v44])
    (try rfl)
  · unfold part6
    after_results
    (try simp only [TRef.ofBuf, TRef.toBuf, cast_eq])
    (try simp only [ha0, ha1, ha2, ha3, h_v15, h_v18, h_v34, h_v35, h_v37, h_v42, h_v44])
    (try rw [ha0])
    (try rw [ha1])
    (try rw [ha2])
    (try rw [ha3])
    (try rw [h_v15])
    (try rw [h_v18])
    (try rw [h_v34])
    (try rw [h_v35])
    (try rw [h_v37])
    (try rw [h_v42])
    (try rw [h_v44])
    (try rfl)

set_option maxHeartbeats 4000000 in
/-- Stretch 7: the buffers later stretches read, after it, from their values before it. -/
theorem stretch7 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v18 : V (Proc.devRef .tc main_v18) = val_main_v18 (F := F) x0)
    (h_v34 : V (Proc.devRef .tc main_v34) = val_main_v34 (F := F) x0 x2 x3)
    (h_v35 : V (Proc.devRef .tc main_v35) = val_main_v35 (F := F) x1)
    (h_v37 : V (Proc.devRef .tc main_v37) = val_main_v37 (F := F))
    (h_v49 : V (Proc.devRef .tc main_v49) = val_main_v49 (F := F))
    (h_v50 : V (Proc.devRef .tc main_v50) = val_main_v50 (F := F) x0) :
    after (part7 (F := F)) V (Proc.devRef .tc main_arg0) = x0
    ∧ after (part7 (F := F)) V (Proc.devRef .tc main_arg1) = x1
    ∧ after (part7 (F := F)) V (Proc.devRef .tc main_arg2) = x2
    ∧ after (part7 (F := F)) V (Proc.devRef .tc main_arg3) = x3
    ∧ after (part7 (F := F)) V (Proc.devRef .tc main_v18) = val_main_v18 (F := F) x0
    ∧ after (part7 (F := F)) V (Proc.devRef .tc main_v34) = val_main_v34 (F := F) x0 x2 x3
    ∧ after (part7 (F := F)) V (Proc.devRef .tc main_v35) = val_main_v35 (F := F) x1
    ∧ after (part7 (F := F)) V (Proc.devRef .tc main_v52) = val_main_v52 (F := F) x0 x1
    ∧ after (part7 (F := F)) V (Proc.devRef .tc main_v57) = val_main_v57 (F := F)
    ∧ after (part7 (F := F)) V (Proc.devRef .tc main_v59) = val_main_v59 (F := F) x0 := by
  refine ⟨?_, ?_, ?_, ?_, ?_, ?_, ?_, ?_, ?_, ?_⟩
  · exact (after_of_forall_not_mem (b := Proc.devRef .tc main_arg0) _ V (List.forall_iff_forall_mem.mp (by
      simp only [part7, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part7, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part7, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part7, List.Forall, nullary_writes, unary_writes, binary_writes, ternary_writes, Finset.mem_singleton]
      repeat' apply And.intro
      all_goals exact devRef_ne_of_ne (by decide)))).trans ha3
  · exact (after_of_forall_not_mem (b := Proc.devRef .tc main_v18) _ V (List.forall_iff_forall_mem.mp (by
      simp only [part7, List.Forall, nullary_writes, unary_writes, binary_writes, ternary_writes, Finset.mem_singleton]
      repeat' apply And.intro
      all_goals exact devRef_ne_of_ne (by decide)))).trans h_v18
  · exact (after_of_forall_not_mem (b := Proc.devRef .tc main_v34) _ V (List.forall_iff_forall_mem.mp (by
      simp only [part7, List.Forall, nullary_writes, unary_writes, binary_writes, ternary_writes, Finset.mem_singleton]
      repeat' apply And.intro
      all_goals exact devRef_ne_of_ne (by decide)))).trans h_v34
  · exact (after_of_forall_not_mem (b := Proc.devRef .tc main_v35) _ V (List.forall_iff_forall_mem.mp (by
      simp only [part7, List.Forall, nullary_writes, unary_writes, binary_writes, ternary_writes, Finset.mem_singleton]
      repeat' apply And.intro
      all_goals exact devRef_ne_of_ne (by decide)))).trans h_v35
  · unfold part7
    after_results
    (try simp only [TRef.ofBuf, TRef.toBuf, cast_eq])
    (try simp only [ha0, ha1, ha2, ha3, h_v18, h_v34, h_v35, h_v37, h_v49, h_v50])
    (try rw [ha0])
    (try rw [ha1])
    (try rw [ha2])
    (try rw [ha3])
    (try rw [h_v18])
    (try rw [h_v34])
    (try rw [h_v35])
    (try rw [h_v37])
    (try rw [h_v49])
    (try rw [h_v50])
    (try rfl)
  · unfold part7
    after_results
    (try simp only [TRef.ofBuf, TRef.toBuf, cast_eq])
    (try simp only [ha0, ha1, ha2, ha3, h_v18, h_v34, h_v35, h_v37, h_v49, h_v50])
    (try rw [ha0])
    (try rw [ha1])
    (try rw [ha2])
    (try rw [ha3])
    (try rw [h_v18])
    (try rw [h_v34])
    (try rw [h_v35])
    (try rw [h_v37])
    (try rw [h_v49])
    (try rw [h_v50])
    (try rfl)
  · unfold part7
    after_results
    (try simp only [TRef.ofBuf, TRef.toBuf, cast_eq])
    (try simp only [ha0, ha1, ha2, ha3, h_v18, h_v34, h_v35, h_v37, h_v49, h_v50])
    (try rw [ha0])
    (try rw [ha1])
    (try rw [ha2])
    (try rw [ha3])
    (try rw [h_v18])
    (try rw [h_v34])
    (try rw [h_v35])
    (try rw [h_v37])
    (try rw [h_v49])
    (try rw [h_v50])
    (try rfl)

set_option maxHeartbeats 4000000 in
/-- Stretch 8: the buffers later stretches read, after it, from their values before it. -/
theorem stretch8 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v18 : V (Proc.devRef .tc main_v18) = val_main_v18 (F := F) x0)
    (h_v34 : V (Proc.devRef .tc main_v34) = val_main_v34 (F := F) x0 x2 x3)
    (h_v35 : V (Proc.devRef .tc main_v35) = val_main_v35 (F := F) x1)
    (h_v52 : V (Proc.devRef .tc main_v52) = val_main_v52 (F := F) x0 x1)
    (h_v57 : V (Proc.devRef .tc main_v57) = val_main_v57 (F := F))
    (h_v59 : V (Proc.devRef .tc main_v59) = val_main_v59 (F := F) x0) :
    after (part8 (F := F)) V (Proc.devRef .tc main_arg0) = x0
    ∧ after (part8 (F := F)) V (Proc.devRef .tc main_arg1) = x1
    ∧ after (part8 (F := F)) V (Proc.devRef .tc main_arg2) = x2
    ∧ after (part8 (F := F)) V (Proc.devRef .tc main_arg3) = x3
    ∧ after (part8 (F := F)) V (Proc.devRef .tc main_v34) = val_main_v34 (F := F) x0 x2 x3
    ∧ after (part8 (F := F)) V (Proc.devRef .tc main_v35) = val_main_v35 (F := F) x1
    ∧ after (part8 (F := F)) V (Proc.devRef .tc main_v52) = val_main_v52 (F := F) x0 x1
    ∧ after (part8 (F := F)) V (Proc.devRef .tc main_v64) = val_main_v64 (F := F)
    ∧ after (part8 (F := F)) V (Proc.devRef .tc main_v65) = val_main_v65 (F := F) x0 := by
  refine ⟨?_, ?_, ?_, ?_, ?_, ?_, ?_, ?_, ?_⟩
  · exact (after_of_forall_not_mem (b := Proc.devRef .tc main_arg0) _ V (List.forall_iff_forall_mem.mp (by
      simp only [part8, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part8, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part8, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part8, List.Forall, nullary_writes, unary_writes, binary_writes, ternary_writes, Finset.mem_singleton]
      repeat' apply And.intro
      all_goals exact devRef_ne_of_ne (by decide)))).trans ha3
  · exact (after_of_forall_not_mem (b := Proc.devRef .tc main_v34) _ V (List.forall_iff_forall_mem.mp (by
      simp only [part8, List.Forall, nullary_writes, unary_writes, binary_writes, ternary_writes, Finset.mem_singleton]
      repeat' apply And.intro
      all_goals exact devRef_ne_of_ne (by decide)))).trans h_v34
  · exact (after_of_forall_not_mem (b := Proc.devRef .tc main_v35) _ V (List.forall_iff_forall_mem.mp (by
      simp only [part8, List.Forall, nullary_writes, unary_writes, binary_writes, ternary_writes, Finset.mem_singleton]
      repeat' apply And.intro
      all_goals exact devRef_ne_of_ne (by decide)))).trans h_v35
  · exact (after_of_forall_not_mem (b := Proc.devRef .tc main_v52) _ V (List.forall_iff_forall_mem.mp (by
      simp only [part8, List.Forall, nullary_writes, unary_writes, binary_writes, ternary_writes, Finset.mem_singleton]
      repeat' apply And.intro
      all_goals exact devRef_ne_of_ne (by decide)))).trans h_v52
  · unfold part8
    after_results
    (try simp only [TRef.ofBuf, TRef.toBuf, cast_eq])
    (try simp only [ha0, ha1, ha2, ha3, h_v18, h_v34, h_v35, h_v52, h_v57, h_v59])
    (try rw [ha0])
    (try rw [ha1])
    (try rw [ha2])
    (try rw [ha3])
    (try rw [h_v18])
    (try rw [h_v34])
    (try rw [h_v35])
    (try rw [h_v52])
    (try rw [h_v57])
    (try rw [h_v59])
    (try rfl)
  · unfold part8
    after_results
    (try simp only [TRef.ofBuf, TRef.toBuf, cast_eq])
    (try simp only [ha0, ha1, ha2, ha3, h_v18, h_v34, h_v35, h_v52, h_v57, h_v59])
    (try rw [ha0])
    (try rw [ha1])
    (try rw [ha2])
    (try rw [ha3])
    (try rw [h_v18])
    (try rw [h_v34])
    (try rw [h_v35])
    (try rw [h_v52])
    (try rw [h_v57])
    (try rw [h_v59])
    (try rfl)

set_option maxHeartbeats 4000000 in
/-- Stretch 9: the buffers later stretches read, after it, from their values before it. -/
theorem stretch9 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v34 : V (Proc.devRef .tc main_v34) = val_main_v34 (F := F) x0 x2 x3)
    (h_v35 : V (Proc.devRef .tc main_v35) = val_main_v35 (F := F) x1)
    (h_v52 : V (Proc.devRef .tc main_v52) = val_main_v52 (F := F) x0 x1)
    (h_v64 : V (Proc.devRef .tc main_v64) = val_main_v64 (F := F))
    (h_v65 : V (Proc.devRef .tc main_v65) = val_main_v65 (F := F) x0) :
    after (part9 (F := F)) V (Proc.devRef .tc main_arg0) = x0
    ∧ after (part9 (F := F)) V (Proc.devRef .tc main_arg1) = x1
    ∧ after (part9 (F := F)) V (Proc.devRef .tc main_arg2) = x2
    ∧ after (part9 (F := F)) V (Proc.devRef .tc main_arg3) = x3
    ∧ after (part9 (F := F)) V (Proc.devRef .tc main_v76) = val_main_v76 (F := F) x0 x1 x2 x3 := by
  refine ⟨?_, ?_, ?_, ?_, ?_⟩
  · exact (after_of_forall_not_mem (b := Proc.devRef .tc main_arg0) _ V (List.forall_iff_forall_mem.mp (by
      simp only [part9, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part9, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part9, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part9, List.Forall, nullary_writes, unary_writes, binary_writes, ternary_writes, Finset.mem_singleton]
      repeat' apply And.intro
      all_goals exact devRef_ne_of_ne (by decide)))).trans ha3
  · unfold part9
    after_results
    (try simp only [TRef.ofBuf, TRef.toBuf, cast_eq])
    (try simp only [ha0, ha1, ha2, ha3, h_v34, h_v35, h_v52, h_v64, h_v65])
    (try rw [ha0])
    (try rw [ha1])
    (try rw [ha2])
    (try rw [ha3])
    (try rw [h_v34])
    (try rw [h_v35])
    (try rw [h_v52])
    (try rw [h_v64])
    (try rw [h_v65])
    (try rfl)

set_option maxHeartbeats 4000000 in
/-- Stretch 10: the buffers later stretches read, after it, from their values before it. -/
theorem stretch10 (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0)
    (ha1 : V (Proc.devRef .tc main_arg1) = x1)
    (ha2 : V (Proc.devRef .tc main_arg2) = x2)
    (ha3 : V (Proc.devRef .tc main_arg3) = x3)
    (h_v76 : V (Proc.devRef .tc main_v76) = val_main_v76 (F := F) x0 x1 x2 x3) :
    after (part10 (F := F)) V (Proc.devRef .tc main_arg0) = x0
    ∧ after (part10 (F := F)) V (Proc.devRef .tc main_arg1) = x1
    ∧ after (part10 (F := F)) V (Proc.devRef .tc main_arg2) = x2
    ∧ after (part10 (F := F)) V (Proc.devRef .tc main_arg3) = x3
    ∧ after (part10 (F := F)) V (Proc.devRef .tc main_v78) = val_main_v78 (F := F) x0 x1 x2 x3 := by
  refine ⟨?_, ?_, ?_, ?_, ?_⟩
  · exact (after_of_forall_not_mem (b := Proc.devRef .tc main_arg0) _ V (List.forall_iff_forall_mem.mp (by
      simp only [part10, List.Forall, nullary_writes, unary_writes, binary_writes, ternary_writes, Finset.mem_singleton]
      repeat' apply And.intro
      all_goals exact devRef_ne_of_ne (by decide)))).trans ha0
  · exact (after_of_forall_not_mem (b := Proc.devRef .tc main_arg1) _ V (List.forall_iff_forall_mem.mp (by
      simp only [part10, List.Forall, nullary_writes, unary_writes, binary_writes, ternary_writes, Finset.mem_singleton]
      repeat' apply And.intro
      all_goals exact devRef_ne_of_ne (by decide)))).trans ha1
  · exact (after_of_forall_not_mem (b := Proc.devRef .tc main_arg2) _ V (List.forall_iff_forall_mem.mp (by
      simp only [part10, List.Forall, nullary_writes, unary_writes, binary_writes, ternary_writes, Finset.mem_singleton]
      repeat' apply And.intro
      all_goals exact devRef_ne_of_ne (by decide)))).trans ha2
  · exact (after_of_forall_not_mem (b := Proc.devRef .tc main_arg3) _ V (List.forall_iff_forall_mem.mp (by
      simp only [part10, List.Forall, nullary_writes, unary_writes, binary_writes, ternary_writes, Finset.mem_singleton]
      repeat' apply And.intro
      all_goals exact devRef_ne_of_ne (by decide)))).trans ha3
  · unfold part10
    after_results
    (try simp only [TRef.ofBuf, TRef.toBuf, cast_eq])
    (try simp only [ha0, ha1, ha2, ha3, h_v76])
    (try rw [ha0])
    (try rw [ha1])
    (try rw [ha2])
    (try rw [ha3])
    (try rw [h_v76])
    (try rfl)

/-- The whole line: the result buffer at the last stage of the arguments, the arguments as they were. -/
theorem after_ops (x0 : (⟨S128x8192, .f32⟩ : BufTy).Contents (Elt F)) (x1 : (⟨S129x128x128, .f32⟩ : BufTy).Contents (Elt F))
    (x2 : (⟨S129, .f32⟩ : BufTy).Contents (Elt F)) (x3 : (⟨S128, .f32⟩ : BufTy).Contents (Elt F))
    (V : Valuation τ sig (Elt F))
    (ha0 : V (Proc.devRef .tc main_arg0) = x0) (ha1 : V (Proc.devRef .tc main_arg1) = x1) (ha2 : V (Proc.devRef .tc main_arg2) = x2) (ha3 : V (Proc.devRef .tc main_arg3) = x3) :
    after (ops (F := F)) V (Proc.devRef .tc main_v78) = val_main_v78 (F := F) x0 x1 x2 x3
    ∧ after (ops (F := F)) V (Proc.devRef .tc main_arg0) = x0
    ∧ after (ops (F := F)) V (Proc.devRef .tc main_arg1) = x1
    ∧ after (ops (F := F)) V (Proc.devRef .tc main_arg2) = x2
    ∧ after (ops (F := F)) V (Proc.devRef .tc main_arg3) = x3 := by
  rw [ops_cut]
  simp only [StableHlo.after_append]
  obtain ⟨a0_0, a1_0, a2_0, a3_0, l0_v2, l0_v4, l0_v8⟩ := stretch0 x0 x1 x2 x3 V ha0 ha1 ha2 ha3
  obtain ⟨a0_1, a1_1, a2_1, a3_1, l1_v14, l1_c_4, l1_call1_v1⟩ := stretch1 x0 x1 x2 x3 (after part0 V) a0_0 a1_0 a2_0 a3_0 l0_v2 l0_v4 l0_v8
  obtain ⟨a0_2, a1_2, a2_2, a3_2, l2_v15, l2_c_7, l2_call2_v2⟩ := stretch2 x0 x1 x2 x3 (after part1 (after part0 V)) a0_1 a1_1 a2_1 a3_1 l1_v14 l1_c_4 l1_call1_v1
  obtain ⟨a0_3, a1_3, a2_3, a3_3, l3_v15, l3_v18, l3_v25⟩ := stretch3 x0 x1 x2 x3 (after part2 (after part1 (after part0 V))) a0_2 a1_2 a2_2 a3_2 l2_v15 l2_c_7 l2_call2_v2
  obtain ⟨a0_4, a1_4, a2_4, a3_4, l4_v15, l4_v18, l4_v34, l4_v35⟩ := stretch4 x0 x1 x2 x3 (after part3 (after part2 (after part1 (after part0 V)))) a0_3 a1_3 a2_3 a3_3 l3_v15 l3_v18 l3_v25
  obtain ⟨a0_5, a1_5, a2_5, a3_5, l5_v15, l5_v18, l5_v34, l5_v35, l5_v37, l5_v42, l5_v44⟩ := stretch5 x0 x1 x2 x3 (after part4 (after part3 (after part2 (after part1 (after part0 V))))) a0_4 a1_4 a2_4 a3_4 l4_v15 l4_v18 l4_v34 l4_v35
  obtain ⟨a0_6, a1_6, a2_6, a3_6, l6_v18, l6_v34, l6_v35, l6_v37, l6_v49, l6_v50⟩ := stretch6 x0 x1 x2 x3 (after part5 (after part4 (after part3 (after part2 (after part1 (after part0 V)))))) a0_5 a1_5 a2_5 a3_5 l5_v15 l5_v18 l5_v34 l5_v35 l5_v37 l5_v42 l5_v44
  obtain ⟨a0_7, a1_7, a2_7, a3_7, l7_v18, l7_v34, l7_v35, l7_v52, l7_v57, l7_v59⟩ := stretch7 x0 x1 x2 x3 (after part6 (after part5 (after part4 (after part3 (after part2 (after part1 (after part0 V))))))) a0_6 a1_6 a2_6 a3_6 l6_v18 l6_v34 l6_v35 l6_v37 l6_v49 l6_v50
  obtain ⟨a0_8, a1_8, a2_8, a3_8, l8_v34, l8_v35, l8_v52, l8_v64, l8_v65⟩ := stretch8 x0 x1 x2 x3 (after part7 (after part6 (after part5 (after part4 (after part3 (after part2 (after part1 (after part0 V)))))))) a0_7 a1_7 a2_7 a3_7 l7_v18 l7_v34 l7_v35 l7_v52 l7_v57 l7_v59
  obtain ⟨a0_9, a1_9, a2_9, a3_9, l9_v76⟩ := stretch9 x0 x1 x2 x3 (after part8 (after part7 (after part6 (after part5 (after part4 (after part3 (after part2 (after part1 (after part0 V))))))))) a0_8 a1_8 a2_8 a3_8 l8_v34 l8_v35 l8_v52 l8_v64 l8_v65
  obtain ⟨a0_10, a1_10, a2_10, a3_10, l10_v78⟩ := stretch10 x0 x1 x2 x3 (after part9 (after part8 (after part7 (after part6 (after part5 (after part4 (after part3 (after part2 (after part1 (after part0 V)))))))))) a0_9 a1_9 a2_9 a3_9 l9_v76
  exact ⟨l10_v78, a0_10, a1_10, a2_10, a3_10⟩

/-- On every device, for any float values, from any memory with zero counters: every weakly fair execution of @main
    terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have w := after_ops (F := F) (m ((c.tc : Thread nD τ).loc main_arg0)) (m ((c.tc : Thread nD τ).loc main_arg1)) (m ((c.tc : Thread nD τ).loc main_arg2)) (m ((c.tc : Thread nD τ).loc main_arg3)) (launchContents m c) rfl rfl rfl rfl
      ⟨(h c main_v78).trans w.1, (h c main_arg0).trans w.2.1, (h c main_arg1).trans w.2.2.1,
        (h c main_arg2).trans w.2.2.2.1, (h c main_arg3).trans w.2.2.2.2⟩)
    (run_seq scopedRefs_eq scopedSems_eq defs main (fun _ => ops) main_eq (fun _ => ops_sub) m ρ
      (fun _ => List.forall_iff_forall_mem.mp ops_fresh))

end Cert.ReferenceIdeal.RefRun

end
-- ==== Proof.Words.lean ====
/-
  Facts about small non-negative 32-bit words. The reference indexes its tables the way array indexing is defined: a
  negative index counts from the end, and every index is clamped into the table. A cell is between 0 and 127 and the
  row after it between 1 and 128, so neither rule does anything: the signed test against 0 fails, the word read as an
  integer is its natural number, and the clamp into the table's range is the identity.
-/
import Idealize.ShloMosaic.PureOps.Ideal
import Idealize.ShloMosaic.Lib.ValueIdx

noncomputable section

namespace Cert.Words

open Idealize.ShloMosaic

/-- A word below 2³¹ is not negative as a signed integer. -/
theorem not_slt_zero (k : BitVec 32) (hk : k.toNat ≤ 128) : IntOp.cmpi .slt k 0#32 = 0#1 := by
  unfold IntOp.cmpi
  have h : k.slt 0#32 = false := by
    simp only [BitVec.slt, BitVec.toInt_eq_toNat_cond]
    split_ifs <;> simp_all <;> omega
  simp [h]

/-- … and as a signed integer it is its natural number. -/
theorem toInt_toNat (k : BitVec 32) (hk : k.toNat ≤ 128) : k.toInt.toNat = k.toNat := by
  rw [BitVec.toInt_eq_toNat_cond]
  split_ifs <;> omega

/-- The word of a small natural number. -/
theorem ofNat_toNat (n : ℕ) (hn : n ≤ 128) : (BitVec.ofNat 32 n).toNat = n := by
  rw [BitVec.toNat_ofNat]; omega

/-- The row after a cell, as a natural number. -/
theorem succ_le (k : BitVec 32) (hk : k.toNat ≤ 127) : (k + 1#32).toNat = k.toNat + 1 := by
  rw [BitVec.toNat_add]; simp; omega

/-- The row after a cell, clamped into 0 … 128, is the row after the cell: it is neither negative nor above 128. -/
theorem clamp_succ (k : BitVec 32) (hk : k.toNat ≤ 127) :
    IntOp.minsi 128#32 (IntOp.maxsi 0#32 (IntOp.addi k 1#32)) = k + 1#32 := by
  have hs := succ_le k hk
  have ht : (k + 1#32).toInt = ((k.toNat + 1 : ℕ) : ℤ) := by
    rw [BitVec.toInt_eq_toNat_cond, hs]; split_ifs <;> omega
  have e0 : (0#32 : BitVec 32).toInt = 0 := by decide
  have e128 : (128#32 : BitVec 32).toInt = 128 := by decide
  have h1 : (k + 1#32).slt 0#32 = false := by
    simp only [BitVec.slt, ht, e0, decide_eq_false_iff_not, not_lt]
    omega
  have h2 : (128#32 : BitVec 32).slt (k + 1#32) = false := by
    simp only [BitVec.slt, ht, e128, decide_eq_false_iff_not, not_lt]
    omega
  unfold IntOp.minsi IntOp.maxsi IntOp.addi
  simp only [h1, h2, Bool.false_eq_true, if_false]

end Cert.Words

end
-- ==== Proof.RefGather.lean ====
/-
  The reference's gather of the table at a pair of row numbers. For each (i, b) a pair of 32-bit words names a row of
  the first axis (128 rows) and a row of the second (129 rows); entry (i, b, o) of the result is the table at those two
  rows, each read as a signed integer and clamped into its axis, and at o on the third axis.
-/
import proofs.«128965_j2293512536822_1_alg».proof.Proof.Gen.ReferenceIdeal
import Idealize.ShloMosaic.Lib.ValueIdx

noncomputable section

namespace Cert.ReferenceIdeal.Gath

open Cert.ReferenceIdeal Cert.ReferenceIdeal.Gen Idealize.ShloMosaic Idealize.ShloMosaic.ValueIdx

/-- The position in the array of pairs where result index (i, b, o) reads component c of its pair. -/
theorem pair_at (i : Fin 128) (b : Fin 8192) (o : Fin 128) (c : Fin 2) (hc) :
    gather_S128x129x128_S128x8192x2_S128x8192x128_2_01_n_n_01_2_11128.siIdx (ix3 i b o) ⟨c.val, hc⟩ = ix3 i b c := by
  funext bx; refine Fin.ext ?_
  match bx with
  | ⟨0, _⟩ => rfl
  | ⟨1, _⟩ => rfl
  | ⟨2, _⟩ => rfl

/-- First axis: the pair's first word, clamped into 0 … 127. -/
theorem axis0 (idx : IVec S128x8192x2 32) (i : Fin 128) (b : Fin 8192) (o : Fin 128) :
    (gather_S128x129x128_S128x8192x2_S128x8192x128_2_01_n_n_01_2_11128.operandIdx (ix3 i b o) idx (0 : Fin 3)).val
      = min (idx (ix3 i b (0 : Fin 2))).toInt.toNat 127 := by
  show gather_S128x129x128_S128x8192x2_S128x8192x128_2_01_n_n_01_2_11128.start (ix3 i b o) idx (0 : Fin 3)
      + gather_S128x129x128_S128x8192x2_S128x8192x128_2_01_n_n_01_2_11128.batchCoord (ix3 i b o) (0 : Fin 3)
      + gather_S128x129x128_S128x8192x2_S128x8192x128_2_01_n_n_01_2_11128.offCoord (ix3 i b o) (0 : Fin 3) = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (by decide)]
  exact congrArg (fun w : BitVec 32 => min w.toInt.toNat 127) (congrArg idx (pair_at i b o (0 : Fin 2) _))

/-- Second axis: the pair's second word, clamped into 0 … 128. -/
theorem axis1 (idx : IVec S128x8192x2 32) (i : Fin 128) (b : Fin 8192) (o : Fin 128) :
    (gather_S128x129x128_S128x8192x2_S128x8192x128_2_01_n_n_01_2_11128.operandIdx (ix3 i b o) idx (1 : Fin 3)).val
      = min (idx (ix3 i b (1 : Fin 2))).toInt.toNat 128 := by
  show gather_S128x129x128_S128x8192x2_S128x8192x128_2_01_n_n_01_2_11128.start (ix3 i b o) idx (1 : Fin 3)
      + gather_S128x129x128_S128x8192x2_S128x8192x128_2_01_n_n_01_2_11128.batchCoord (ix3 i b o) (1 : Fin 3)
      + gather_S128x129x128_S128x8192x2_S128x8192x128_2_01_n_n_01_2_11128.offCoord (ix3 i b o) (1 : Fin 3) = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (by decide)]
  exact congrArg (fun w : BitVec 32 => min w.toInt.toNat 128) (congrArg idx (pair_at i b o (1 : Fin 2) _))

/-- Third axis: the result's own third coordinate. -/
theorem axis2 (idx : IVec S128x8192x2 32) (i : Fin 128) (b : Fin 8192) (o : Fin 128) :
    (gather_S128x129x128_S128x8192x2_S128x8192x128_2_01_n_n_01_2_11128.operandIdx (ix3 i b o) idx (2 : Fin 3)).val = o.val := by
  show gather_S128x129x128_S128x8192x2_S128x8192x128_2_01_n_n_01_2_11128.start (ix3 i b o) idx (2 : Fin 3)
      + gather_S128x129x128_S128x8192x2_S128x8192x128_2_01_n_n_01_2_11128.batchCoord (ix3 i b o) (2 : Fin 3)
      + gather_S128x129x128_S128x8192x2_S128x8192x128_2_01_n_n_01_2_11128.offCoord (ix3 i b o) (2 : Fin 3) = _
  rw [GatherDims.batchCoord_eq_zero _ _ _ (by decide)]
  unfold GatherDims.start
  rw [dif_neg (by decide)]
  unfold GatherDims.offCoord
  rw [dif_pos (by decide)]
  simp only [Nat.zero_add]
  rfl

/-- THE GATHER READ AT (i, b, o). -/
theorem gather3_apply {α : Type} (x : S128x129x128.Idx → α) (idx : IVec S128x8192x2 32) (i : Fin 128) (b : Fin 8192) (o : Fin 128) :
    Host.gather gather_S128x129x128_S128x8192x2_S128x8192x128_2_01_n_n_01_2_11128 x idx (ix3 i b o)
      = x (ix3 (⟨min (idx (ix3 i b (0 : Fin 2))).toInt.toNat 127, by omega⟩ : Fin 128)
               (⟨min (idx (ix3 i b (1 : Fin 2))).toInt.toNat 128, by omega⟩ : Fin 129) o) := by
  unfold Host.gather
  congr 1
  funext a
  refine Fin.ext ?_
  match a with
  | ⟨0, _⟩ => exact axis0 idx i b o
  | ⟨1, _⟩ => exact axis1 idx i b o
  | ⟨2, _⟩ => exact axis2 idx i b o

end Cert.ReferenceIdeal.Gath

end
-- ==== Proof.RefValue.lean ====
/-
  The reference read at an index, stage by stage. For each input row i and batch entry b it computes the cell of
  x[i, b], reads the knot and the reciprocal length at the cell, forms d, reads the table at (cell, o, i) and
  (cell + 1, o, i) through a gather of row-number pairs, and sums (1 − d)·p[cell] + d·p[cell + 1] over i; the result is
  transposed to (o, b). Every index it forms is in range (Words), so the wrap of negative indices and the clamps are
  the identity, and entry (o, b) is 0 plus the sum over i of the piecewise-linear function of x[i, b].
-/
import proofs.«128965_j2293512536822_1_alg».proof.Proof.RefStages
import proofs.«128965_j2293512536822_1_alg».proof.Proof.Interp
import proofs.«128965_j2293512536822_1_alg».proof.Proof.Words
import proofs.«128965_j2293512536822_1_alg».proof.Proof.RefGather
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Stages Cert.ReferenceIdeal.Gath Cert.Interp Cert.Words
open Idealize.ShloMosaic Idealize.ShloMosaic.ValueIdx

variable (x0 : (⟨S128x8192, .f32⟩ : BufTy).Contents (Elt Ideal)) (x1 : (⟨S129x128x128, .f32⟩ : BufTy).Contents (Elt Ideal))
  (x2 : (⟨S129, .f32⟩ : BufTy).Contents (Elt Ideal)) (x3 : (⟨S128, .f32⟩ : BufTy).Contents (Elt Ideal))

/-- An index of a 128 × 8192 array is the pair of its coordinates. -/
theorem idx2 (j : S128x8192.Idx) (i : Fin 128) (b : Fin 8192) (h0 : (j 0).val = i.val) (h1 : (j 1).val = b.val) : j = ix2 i b := by
  funext a; apply Fin.ext
  match a with
  | ⟨0, _⟩ => exact h0
  | ⟨1, _⟩ => exact h1

/-- The cell of x[i, b]. -/
theorem cell_at (i : Fin 128) (b : Fin 8192) : val_main_v15 (F := Ideal) x0 (ix2 i b) = cell (x0 (ix2 i b)) := rfl

/-- The row after it, clamped into 0 … 128: the row after it. -/
theorem next_at (i : Fin 128) (b : Fin 8192) : val_main_v18 (F := Ideal) x0 (ix2 i b) = cell (x0 (ix2 i b)) + 1#32 := by
  show IntOp.minsi 128#32 (IntOp.maxsi 0#32 (IntOp.addi (val_main_v15 (F := Ideal) x0 (ix2 i b)) 1#32)) = _
  rw [cell_at, clamp_succ _ (cell_le _)]

/-- A cell is not negative, so counting from the end never applies: the knot index. -/
theorem wrap_knot (i : Fin 128) (b : Fin 8192) : val_main_v23 (F := Ideal) x0 (ix2 i b) = cell (x0 (ix2 i b)) := by
  show Scalar.select (IntOp.cmpi .slt (val_main_v15 (F := Ideal) x0 (ix2 i b)) 0#32) _ (val_main_v15 (F := Ideal) x0 (ix2 i b)) = _
  rw [cell_at, not_slt_zero _ (by have := cell_le (x0 (ix2 i b)); omega), select_zero]

/-- … the reciprocal-length index. -/
theorem wrap_len (i : Fin 128) (b : Fin 8192) : val_main_v30 (F := Ideal) x0 (ix2 i b) = cell (x0 (ix2 i b)) := by
  show Scalar.select (IntOp.cmpi .slt (val_main_v15 (F := Ideal) x0 (ix2 i b)) 0#32) _ (val_main_v15 (F := Ideal) x0 (ix2 i b)) = _
  rw [cell_at, not_slt_zero _ (by have := cell_le (x0 (ix2 i b)); omega), select_zero]

/-- … the table's row at the cell. -/
theorem wrap_here (i : Fin 128) (b : Fin 8192) : val_main_v47 (F := Ideal) x0 (ix2 i b) = cell (x0 (ix2 i b)) := by
  show Scalar.select (IntOp.cmpi .slt (val_main_v15 (F := Ideal) x0 (ix2 i b)) 0#32) _ (val_main_v15 (F := Ideal) x0 (ix2 i b)) = _
  rw [cell_at, not_slt_zero _ (by have := cell_le (x0 (ix2 i b)); omega), select_zero]

/-- … and the table's row after the cell. -/
theorem wrap_next (i : Fin 128) (b : Fin 8192) : val_main_v62 (F := Ideal) x0 (ix2 i b) = cell (x0 (ix2 i b)) + 1#32 := by
  rw [val_main_v62_apply, val_main_v59_apply, next_at, show val_main_v58 (F := Ideal) (ix2 i b) = 0#32 from rfl,
    not_slt_zero _ (by have := cell_le (x0 (ix2 i b)); have := succ_le _ this; omega), select_zero]

/-- The knot at the cell. -/
theorem knot_at (i : Fin 128) (b : Fin 8192) :
    val_main_v25 (F := Ideal) x0 x2 (ix2 i b)
      = x2 (ix1 (⟨(cell (x0 (ix2 i b))).toNat, by have := cell_le (x0 (ix2 i b)); omega⟩ : Fin 129)) := by
  have hc := cell_le (x0 (ix2 i b))
  have e : val_main_v24 (F := Ideal) x0 (takeIdx (ix2 i b)) = cell (x0 (ix2 i b)) := by
    rw [val_main_v24_apply, idx2 (idx_main_v24 (takeIdx (ix2 i b))) i b rfl rfl, wrap_knot]
  unfold val_main_v25
  refine (gather_take_apply (N := 129) (R := 128) (C := 8192) (by decide)
    gather_S129_S128x8192x1_S128x8192_n_0_n_n_0_2_1_wf x2 (val_main_v24 (F := Ideal) x0) (ix2 i b)).trans ?_
  refine congrArg x2 (congrArg ix1 (Fin.ext ?_))
  show min (val_main_v24 (F := Ideal) x0 (takeIdx (ix2 i b))).toInt.toNat (129 - 1) = (cell (x0 (ix2 i b))).toNat
  rw [e, toInt_toNat _ (by omega)]
  exact Nat.min_eq_left (by omega)

/-- The reciprocal length at the cell. -/
theorem len_at (i : Fin 128) (b : Fin 8192) :
    val_main_v32 (F := Ideal) x0 x3 (ix2 i b)
      = x3 (ix1 (⟨(cell (x0 (ix2 i b))).toNat, by have := cell_le (x0 (ix2 i b)); omega⟩ : Fin 128)) := by
  have hc := cell_le (x0 (ix2 i b))
  have e : val_main_v31 (F := Ideal) x0 (takeIdx (ix2 i b)) = cell (x0 (ix2 i b)) := by
    rw [val_main_v31_apply, idx2 (idx_main_v31 (takeIdx (ix2 i b))) i b rfl rfl, wrap_len]
  unfold val_main_v32
  refine (gather_take_apply (N := 128) (R := 128) (C := 8192) (by decide)
    gather_S128_S128x8192x1_S128x8192_n_0_n_n_0_2_1_wf x3 (val_main_v31 (F := Ideal) x0) (ix2 i b)).trans ?_
  refine congrArg x3 (congrArg ix1 (Fin.ext ?_))
  show min (val_main_v31 (F := Ideal) x0 (takeIdx (ix2 i b))).toInt.toNat (128 - 1) = (cell (x0 (ix2 i b))).toNat
  rw [e, toInt_toNat _ (by omega)]
  exact Nat.min_eq_left (by omega)

/-- d for (i, b): the offset of x[i, b] from its cell's left knot, times the cell's reciprocal length. -/
theorem frac_at (i : Fin 128) (b : Fin 8192) :
    val_main_v34 (F := Ideal) x0 x2 x3 (ix2 i b)
      = (x0 (ix2 i b) - x2 (ix1 (⟨(cell (x0 (ix2 i b))).toNat, by have := cell_le (x0 (ix2 i b)); omega⟩ : Fin 129)))
          * x3 (ix1 (⟨(cell (x0 (ix2 i b))).toNat, by have := cell_le (x0 (ix2 i b)); omega⟩ : Fin 128)) := by
  show (x0 (ix2 i b) - val_main_v25 (F := Ideal) x0 x2 (ix2 i b)) * val_main_v32 (F := Ideal) x0 x3 (ix2 i b) = _
  rw [knot_at, len_at]

/-- The input row's own number, as the first word of the pair at the cell … -/
theorem row_here (i : Fin 128) : val_main_v42 (F := Ideal) (ix2 i (0 : Fin 1)) = BitVec.ofNat 32 i.val := by
  have e : val_main_v37 (F := Ideal) (ix2 i (0 : Fin 1)) = BitVec.ofNat 32 i.val := by
    rw [val_main_v37_apply]; rfl
  show Scalar.select (IntOp.cmpi .slt (val_main_v37 (F := Ideal) (ix2 i (0 : Fin 1))) 0#32) _ (val_main_v37 (F := Ideal) (ix2 i (0 : Fin 1))) = _
  rw [e, not_slt_zero _ (by rw [ofNat_toNat _ (by have := i.isLt; omega)]; have := i.isLt; omega), select_zero]

/-- … and of the pair at the row after it. -/
theorem row_next (i : Fin 128) : val_main_v57 (F := Ideal) (ix2 i (0 : Fin 1)) = BitVec.ofNat 32 i.val := by
  have e : val_main_v37 (F := Ideal) (ix2 i (0 : Fin 1)) = BitVec.ofNat 32 i.val := by
    rw [val_main_v37_apply]; rfl
  show Scalar.select (IntOp.cmpi .slt (val_main_v37 (F := Ideal) (ix2 i (0 : Fin 1))) 0#32) _ (val_main_v37 (F := Ideal) (ix2 i (0 : Fin 1))) = _
  rw [e, not_slt_zero _ (by rw [ofNat_toNat _ (by have := i.isLt; omega)]; have := i.isLt; omega), select_zero]

/-- The pair for the cell: (input row, cell). -/
theorem pair_here0 (i : Fin 128) (b : Fin 8192) : val_main_v51 (F := Ideal) x0 (ix3 i b (0 : Fin 2)) = BitVec.ofNat 32 i.val := by
  unfold val_main_v51
  refine (concatenate_pair_apply_left (t := S128x8192x2) (s₁ := S128x8192x1) (s₂ := S128x8192x1) (2 : Fin 3) _ _
    concatenates_S128x8192x1_S128x8192x1_S128x8192x2_d2 (ix3 i b (0 : Fin 2)) rfl (ix3 i b (0 : Fin 1)) (fun bx => ?_)).trans ?_
  · match bx with
    | ⟨0, _⟩ => rfl
    | ⟨1, _⟩ => rfl
    | ⟨2, _⟩ => rfl
  · rw [val_main_v49_apply, val_main_v48_apply]
    exact (congrArg (val_main_v42 (F := Ideal)) (funext fun a => Fin.ext (by match a with | ⟨0, _⟩ => rfl | ⟨1, _⟩ => rfl))).trans (row_here i)

theorem pair_here1 (i : Fin 128) (b : Fin 8192) : val_main_v51 (F := Ideal) x0 (ix3 i b (1 : Fin 2)) = cell (x0 (ix2 i b)) := by
  unfold val_main_v51
  refine (concatenate_pair_apply_right (t := S128x8192x2) (s₁ := S128x8192x1) (s₂ := S128x8192x1) (2 : Fin 3) _ _
    concatenates_S128x8192x1_S128x8192x1_S128x8192x2_d2 (ix3 i b (1 : Fin 2)) rfl rfl (ix3 i b (0 : Fin 1)) (fun bx hne => ?_) rfl).trans ?_
  · match bx with
    | ⟨0, _⟩ => rfl
    | ⟨1, _⟩ => rfl
    | ⟨2, _⟩ => exact absurd rfl hne
  · rw [val_main_v50_apply, idx2 (idx_main_v50 (ix3 i b (0 : Fin 1))) i b rfl rfl, wrap_here]

/-- The pair for the row after the cell: (input row, cell + 1). -/
theorem pair_next0 (i : Fin 128) (b : Fin 8192) : val_main_v66 (F := Ideal) x0 (ix3 i b (0 : Fin 2)) = BitVec.ofNat 32 i.val := by
  unfold val_main_v66
  refine (concatenate_pair_apply_left (t := S128x8192x2) (s₁ := S128x8192x1) (s₂ := S128x8192x1) (2 : Fin 3) _ _
    concatenates_S128x8192x1_S128x8192x1_S128x8192x2_d2 (ix3 i b (0 : Fin 2)) rfl (ix3 i b (0 : Fin 1)) (fun bx => ?_)).trans ?_
  · match bx with
    | ⟨0, _⟩ => rfl
    | ⟨1, _⟩ => rfl
    | ⟨2, _⟩ => rfl
  · rw [val_main_v64_apply, val_main_v63_apply]
    exact (congrArg (val_main_v57 (F := Ideal)) (funext fun a => Fin.ext (by match a with | ⟨0, _⟩ => rfl | ⟨1, _⟩ => rfl))).trans (row_next i)

theorem pair_next1 (i : Fin 128) (b : Fin 8192) : val_main_v66 (F := Ideal) x0 (ix3 i b (1 : Fin 2)) = cell (x0 (ix2 i b)) + 1#32 := by
  unfold val_main_v66
  refine (concatenate_pair_apply_right (t := S128x8192x2) (s₁ := S128x8192x1) (s₂ := S128x8192x1) (2 : Fin 3) _ _
    concatenates_S128x8192x1_S128x8192x1_S128x8192x2_d2 (ix3 i b (1 : Fin 2)) rfl rfl (ix3 i b (0 : Fin 1)) (fun bx hne => ?_) rfl).trans ?_
  · match bx with
    | ⟨0, _⟩ => rfl
    | ⟨1, _⟩ => rfl
    | ⟨2, _⟩ => exact absurd rfl hne
  · rw [val_main_v65_apply, idx2 (idx_main_v65 (ix3 i b (0 : Fin 1))) i b rfl rfl, wrap_next]

/-- The table entry at the cell, for output o and input row i. -/
theorem tab_here (i : Fin 128) (b : Fin 8192) (o : Fin 128) :
    val_main_v52 (F := Ideal) x0 x1 (ix3 i b o)
      = x1 (ix3 (⟨(cell (x0 (ix2 i b))).toNat, by have := cell_le (x0 (ix2 i b)); omega⟩ : Fin 129) o i) := by
  have hc := cell_le (x0 (ix2 i b))
  have hi := i.isLt
  unfold val_main_v52
  rw [gather3_apply, val_main_v35_apply]
  refine congrArg x1 (funext fun a => Fin.ext ?_)
  match a with
  | ⟨0, _⟩ =>
    show min (val_main_v51 (F := Ideal) x0 (ix3 i b (1 : Fin 2))).toInt.toNat 128 = (cell (x0 (ix2 i b))).toNat
    rw [pair_here1, toInt_toNat _ (by omega)]
    exact Nat.min_eq_left (by omega)
  | ⟨1, _⟩ => rfl
  | ⟨2, _⟩ =>
    show min (val_main_v51 (F := Ideal) x0 (ix3 i b (0 : Fin 2))).toInt.toNat 127 = i.val
    rw [pair_here0, toInt_toNat _ (by rw [ofNat_toNat _ (by omega)]; omega), ofNat_toNat _ (by omega)]
    exact Nat.min_eq_left (by omega)

/-- The table entry at the row after the cell. -/
theorem tab_next (i : Fin 128) (b : Fin 8192) (o : Fin 128) :
    val_main_v67 (F := Ideal) x0 x1 (ix3 i b o)
      = x1 (ix3 (⟨(cell (x0 (ix2 i b))).toNat + 1, by have := cell_le (x0 (ix2 i b)); omega⟩ : Fin 129) o i) := by
  have hc := cell_le (x0 (ix2 i b))
  have hs := succ_le _ hc
  have hi := i.isLt
  unfold val_main_v67
  rw [gather3_apply, val_main_v35_apply]
  refine congrArg x1 (funext fun a => Fin.ext ?_)
  match a with
  | ⟨0, _⟩ =>
    show min (val_main_v66 (F := Ideal) x0 (ix3 i b (1 : Fin 2))).toInt.toNat 128 = (cell (x0 (ix2 i b))).toNat + 1
    rw [pair_next1, toInt_toNat _ (by omega), hs]
    exact Nat.min_eq_left (by omega)
  | ⟨1, _⟩ => rfl
  | ⟨2, _⟩ =>
    show min (val_main_v66 (F := Ideal) x0 (ix3 i b (0 : Fin 2))).toInt.toNat 127 = i.val
    rw [pair_next0, toInt_toNat _ (by rw [ofNat_toNat _ (by omega)]; omega), ofNat_toNat _ (by omega)]
    exact Nat.min_eq_left (by omega)

/-- The summand for (i, b, o): the piecewise-linear function of x[i, b] (the two products commuted). -/
theorem summand_at (i : Fin 128) (b : Fin 8192) (o : Fin 128) :
    val_main_v76 (F := Ideal) x0 x1 x2 x3 (ix3 i b o)
      = term (x0 (ix2 i b)) (fun g => x2 (ix1 g))
          (fun g => if h : g.val < 128 then x3 (ix1 (⟨g.val, h⟩ : Fin 128)) else 0) (fun g => x1 (ix3 g o i)) := by
  have hc := cell_le (x0 (ix2 i b))
  rw [val_main_v76_apply, val_main_v72_apply, val_main_v75_apply, val_main_v71_apply, val_main_v70_apply,
    val_main_v74_apply, val_main_v73_apply, tab_here, tab_next,
    idx2 (idx_main_v70 (idx_main_v71 (ix3 i b o))) i b rfl rfl, idx2 (idx_main_v73 (idx_main_v74 (ix3 i b o))) i b rfl rfl,
    val_main_v69_apply, frac_at]
  unfold term
  dsimp only
  rw [dif_pos (show (cell (x0 (ix2 i b))).toNat < 128 by omega)]
  exact congrArg₂ (· + ·) (mul_comm _ _) (mul_comm _ _)

/-- THE REFERENCE'S RESULT at (o, b). -/
theorem result_apply (o : Fin 128) (b : Fin 8192) :
    val_main_v78 (F := Ideal) x0 x1 x2 x3 (ix2 o b)
      = 0 + ∑ i : Fin 128, term (x0 (ix2 i b)) (fun g => x2 (ix1 g))
          (fun g => if h : g.val < 128 then x3 (ix1 (⟨g.val, h⟩ : Fin 128)) else 0) (fun g => x1 (ix3 g o i)) := by
  rw [val_main_v78_apply, val_main_v77_apply]
  refine congrArg₂ (· + ·) Ideal.ofBits_zero_f32 (Finset.sum_congr rfl fun i _ => ?_)
  refine (congrArg (val_main_v76 (F := Ideal) x0 x1 x2 x3) (funext fun a => Fin.ext ?_)).trans (summand_at x0 x1 x2 x3 i b o)
  match a with
  | ⟨0, _⟩ => rfl
  | ⟨1, _⟩ => rfl
  | ⟨2, _⟩ => rfl

end Cert.ReferenceIdeal.RefValue

end
-- ==== Proof.lean ====
/-
  A spline layer: out[o, b] = Σ_i f_{o,i}(x[i, b]), where f_{o,i} is piecewise linear with 129 knots. The knot cell of x is
  found through the Laplace distribution function, cdf x = 1 − ½·e^{−|x|} for x > 0 and ½·e^{−|x|} otherwise: the cell is
  the integer part of 128·cdf x, clamped into 0 … 127. On the cell, with d the offset of x from the cell's left border
  times the cell's reciprocal length, f_{o,i}(x) = (1 − d)·p[cell, o, i] + d·p[cell + 1, o, i].

  The reference indexes its tables by the cell. The kernel walks a 2 × 128 grid (batch tile, input row), and at each
  point multiplies the 128 × 129 table slice for the input row by a 129 × 4096 weight matrix whose column b holds 1 − d at
  the cell's row, d at the row after it and 0 elsewhere, accumulating into the output block over the 128 input rows.

  On the extended reals 0·a = 0 and 1·a = a for every a, so the row sums pick single entries out whether or not anything
  is infinite; sums are associative and commutative, so accumulating block by block is the reference's one sum; a change
  of float format is the identity. So both results are, at (o, b), 0 plus the sum over the 128 input rows of f_{o,i}(x[i, b]):
  Fold.result_apply for the kernel, RefValue.result_apply for the reference. Finiteness of the inputs is not used.
-/
import proofs.«128965_j2293512536822_1_alg».proof.Defs
import proofs.«128965_j2293512536822_1_alg».proof.Proof.Gen.Kernel.Frame
import proofs.«128965_j2293512536822_1_alg».proof.Proof.Gen.KernelIdeal.Value
import proofs.«128965_j2293512536822_1_alg».proof.Proof.Gen.Pre_finite_inputs
import proofs.«128965_j2293512536822_1_alg».proof.Proof.Fold
import proofs.«128965_j2293512536822_1_alg».proof.Proof.RefRun
import proofs.«128965_j2293512536822_1_alg».proof.Proof.RefValue
import Idealize.ShloMosaic.Adequacy
import Idealize.ShloMosaic.Init

noncomputable section

namespace Cert.Proof

open Idealize.ShloMosaic Idealize.SL.Sem Idealize.ShloMosaic.ValueIdx

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run (RefRun), the result dropped. -/
theorem frame_ReferenceIdeal : frame_ReferenceIdeal := fun m ρ _ =>
  (θ_run Cert.ReferenceIdeal.defs _ _).mono (fun _ h c => (h c).2) (Cert.ReferenceIdeal.RefRun.run (F := Ideal) m ρ)

/-- From memories that agree on the four arguments, the reference's result array is the kernel's: at every (o, b) both are
    0 plus the sum over the input rows of the piecewise-linear function of x[i, b]. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Stages.val_main_v78 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.Value.G4 m c := by
  rw [h0, h1, h2, h3]
  funext j
  obtain ⟨o, b, rfl⟩ : ∃ (o : Fin 128) (b : Fin 8192), j = ix2 o b := ⟨j 0, j 1, eq_ix2 j⟩
  exact (Cert.ReferenceIdeal.RefValue.result_apply _ _ _ _ o b).trans (Cert.KernelIdeal.Fold.result_apply m c o b).symm

/-- Both idealized programs run from agreeing memories and end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.RefRun.run (F := Ideal) m' ρ')
  rw [(h c).1]
  exact results_agree m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
